-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S16384x4096 .f32) (main_arg1 : FVec F S14336x4096 .f32) (main_arg2 : FVec F S14336x4096 .f32) (main_arg3 : FVec F S4096x14336 .f32) (main_arg4 : IVec S4096 32) (main_arg5 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg5 main_v13 main_v16
-- ==== Kernel.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4096 : Shape := ⟨2, ![4096, 4096]⟩
abbrev S512x4096 : Shape := ⟨2, ![512, 4096]⟩
abbrev S512x512 : Shape := ⟨2, ![512, 512]⟩
abbrev S2048x512 : Shape := ⟨2, ![2048, 512]⟩
abbrev S512x1 : Shape := ⟨2, ![512, 1]⟩
abbrev S512x2048 : Shape := ⟨2, ![512, 2048]⟩

abbrev nBuf : Space → Nat
  | .hbm => 36
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096, .i32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S14336x4096, .bf16⟩
  | .hbm, ⟨31, _⟩ => ⟨S14336x4096, .bf16⟩
  | .hbm, ⟨32, _⟩ => ⟨S4096x14336, .bf16⟩
  | .hbm, ⟨33, _⟩ => ⟨S4096x1, .f32⟩
  | .hbm, ⟨34, _⟩ => ⟨S4096x14336, .bf16⟩
  | .hbm, ⟨35, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S512x1, .f32⟩
  | .local _ .vmem, ⟨13, _⟩ => ⟨S512x1, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![28, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 28], ![false, false, false]⟩

def k1_cond2 (i : grid1.Coords) : BitVec 1 :=
  let arg2 : BitVec 32 := BitVec.ofNat 32 (i 2).val
  let c27_i32 : BitVec 32 := 27#32
  let v13 : BitVec 1 := Scalar.cmpi .eq arg2 c27_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bitsLt_bf16_f32 : FTy.bits .bf16 < FTy.bits .f32
  shapeCasts_S4096_S4096x1 : S4096.ShapeCasts S4096x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  gather_S16384x4096_S4096x1_S4096x4096_1_0_n_n_0_1_14096_wf : GatherDims.WF S16384x4096 S4096x1 S4096x4096 [1] [0] [] [0] [] 1 ![1, 4096]
  dot_S512x4096_S512x4096_S512x512_1_1_0_0_n_n_wf : DotDims.WF S512x4096 S512x4096 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .bf16 = 32 ∨ (Rect.block (s := S14336x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x14336.size a
  hwx0_3 : ∀ i : grid0.Coords, EltTy.bits .bf16 = 32 ∨ (Rect.block (s := S4096x14336) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x14336.size a
  hwx1_0 : ∀ i : grid1.Coords, EltTy.bits .bf16 = 32 ∨ (Rect.block (s := S4096x14336) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x14336.size a
  hwx1_1 : ∀ i : grid1.Coords, EltTy.bits .bf16 = 32 ∨ (Rect.block (s := S4096x14336) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x4096.size a
  hwx1_3 : ∀ i : grid1.Coords, EltTy.bits .f32 = 32 ∨ (Rect.block (s := S4096x4096) S512x2048.size (cc1_transform_3 i) (hinb1_3 i)).WholeWords (EltTy.packing .f32)

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S14336x4096 : Shape := ⟨2, ![14336, 4096]⟩
abbrev S4096x14336 : Shape := ⟨2, ![4096, 14336]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096, .i32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x14336, .f32⟩
  | .hbm, ⟨30, _⟩ => ⟨S4096x14336, .f32⟩
  | .hbm, ⟨31, _⟩ => ⟨S4096x14336, .f32⟩
  | .hbm, ⟨32, _⟩ => ⟨S4096x14336, .f32⟩
  | .hbm, ⟨33, _⟩ => ⟨S_, .f32⟩
  | .hbm, ⟨34, _⟩ => ⟨S4096x14336, .f32⟩
  | .hbm, ⟨35, _⟩ => ⟨S4096x14336, .f32⟩
  | .hbm, ⟨36, _⟩ => ⟨S_, .f32⟩
  | .hbm, ⟨37, _⟩ => ⟨S4096x14336, .f32⟩
  | .hbm, ⟨38, _⟩ => ⟨S4096x14336, .f32⟩
  | .hbm, ⟨39, _⟩ => ⟨S4096x14336, .f32⟩
  | .hbm, ⟨40, _⟩ => ⟨S4096x14336, .f32⟩
  | .hbm, ⟨41, _⟩ => ⟨S4096x4096, .f32⟩
  | .hbm, ⟨42, _⟩ => ⟨S4096x1, .f32⟩
  | .hbm, ⟨43, _⟩ => ⟨S4096x4096, .f32⟩
  | .hbm, ⟨44, _⟩ => ⟨S4096x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  bcast_S_S4096x14336 : S_.BroadcastsInDim S4096x14336 (![] : Fin 0 → Fin S4096x14336.rank)
  bcast_S4096x1_S4096x4096_0_1 : S4096x1.BroadcastsInDim S4096x4096 (![0, 1] : Fin 2 → Fin S4096x4096.rank)
  gather_S16384x4096_S4096x1_S4096x4096_1_0_n_n_0_1_14096_wf : GatherDims.WF S16384x4096 S4096x1 S4096x4096 [1] [0] [] [0] [] 1 ![1, 4096]
  dot_S4096x4096_S14336x4096_S4096x14336_1_1_0_0_n_n_wf : DotDims.WF S4096x4096 S14336x4096 S4096x14336 [1] [1] [0] [0] [] []
  dot_S4096x14336_S4096x14336_S4096x4096_1_1_0_0_n_n_wf : DotDims.WF S4096x14336 S4096x14336 S4096x4096 [1] [1] [0] [0] [] []

variable [Facts₀]

def gather_S16384x4096_S4096x1_S4096x4096_1_0_n_n_0_1_14096 : GatherDims S16384x4096 S4096x1 S4096x4096 where
  offsetDims := [1]
  collapsedSliceDims := [0]
  operandBatchingDims := []
  startIndicesBatchingDims := []
  startIndexMap := [0]
  indexVectorDim := 1
  sliceSizes := ![1, 4096]
  wf := gather_S16384x4096_S4096x1_S4096x4096_1_0_n_n_0_1_14096_wf
def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.KGateUp.lean ====
/-
  The gate / up region (the first kernel launch), at any float instance and at any contents `V` of the core's buffers at
  the region's entry.

  The grid has 28 × 8 points: the outer coordinate picks a block of 512 rows of the gate and up weights, the inner one a
  block of 512 selected tokens. At a point the body reads the three staged input blocks whole — 512 tokens by all 4096
  input features, and 512 weight rows by all 4096 input features, twice — and stores ONE value over the whole 512 × 512
  output block: the activation of those tokens against those weight rows. It keeps nothing from point to point. So the
  region's proof data is: every input's staging buffer holds its block of the entry array at every point (whether the point
  fetches it or the block index has not moved), and the output's staging buffer after the body holds that one stored value
  of the three input blocks.
-/
import proofs.«127610_j17051020165440_1_alg».proof.Proof.Gen.Kernel.Launch
import proofs.«127610_j17051020165440_1_alg».proof.Proof.Gen.Kernel.Skeleton
import proofs.«127610_j17051020165440_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token block is in its staging buffer at every point: for any proof data over the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The gate weights' block likewise: it is fetched only when the outer coordinate moves, and stays in place between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The up weights' block likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rIn0 : Rect S512x4096 := Rect.unit (s := S512x4096) ![0, 0] S512x4096.size inb_S512x4096_S512x4096_0_0
abbrev rOut0 : Rect S512x512 := Rect.unit (s := S512x512) ![0, 0] S512x512.size inb_S512x512_S512x512_0_0

/-- What the body leaves in the output's staging buffer: its one store, the activation of the token block against the two
    weight blocks, over the whole buffer. -/
def out0_3 (x0 x1 x2 : Vec F S512x4096 .bf16) : Vec F S512x512 .bf16 :=
  View.canon [⟨rOut0, k0_pay1 (View.ld x0 rIn0) (View.ld x1 rIn0) (View.ld x2 rIn0)⟩]

/-- The one store covers the buffer. -/
theorem cover0_3 (p0 : Vec F S512x512 .bf16) (y : S512x512.Idx) :
    ∃ pc ∈ ([⟨rOut0, p0⟩] : List (View.Piece (Elt F) S512x512 .bf16)), y ∈ pc.1.set :=
  View.cover_of_tiled [⟨rOut0, p0⟩] S512x512.size (by rfl) y

/-! ## The body's triple -/

set_option maxHeartbeats 1000000 in
/-- On whole staging buffers — the inputs' at contents `x0`, `x1`, `x2`, the output's at anything — the body runs to its
    continuation with the inputs as they were and the output's buffer at `out0_3` of them. -/
theorem sound_kernel0 (c : Dev nD) (E : Set ℕ) (i : grid0.Coords)
    (arg2 : Memref sig .tc .vmem S512x4096 .bf16) (harg2 : arg2.IsWhole) (arg3 : Memref sig .tc .vmem S512x4096 .bf16) (harg3 : arg3.IsWhole)
    (arg4 : Memref sig .tc .vmem S512x4096 .bf16) (harg4 : arg4.IsWhole) (arg5 : Memref sig .tc .vmem S512x512 .bf16) (harg5 : arg5.IsWhole)
    (x0 x1 x2 : Vec F S512x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the gate / up pipeline on core `c`: the arrays as the region finds them; after the body at point
    `t` each input's buffer at its block and the output's at `out0_3` of the three input blocks; the invariant says only
    that the scoped buffers no window stages and the generator register are there, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.GateUp

end
-- ==== Proof.KDown.lean ====
/-
  The down-projection region (the second kernel launch), at any float instance and at any contents `V` of the core's
  buffers at the region's entry.

  The grid has 8 × 2 × 28 points: a block of 512 tokens, a block of 2048 output features, and — innermost — a block of
  512 inner features, the axis the projection sums over. The body keeps an accumulator (512 × 2048) in a scratch buffer
  from point to point: at the first inner block it stores zero into it; at every point it adds the product of the
  activation block (512 tokens × 512 inner features) with the down-weight block (2048 output features × 512 inner features,
  contracted along the inner features) to it; at the last inner block it stores the accumulator times the tokens' routing
  weights (a 512 × 1 column, broadcast along the row) into the output's staging buffer, which is written back at exactly
  those points and left untouched at the others. So a point is in one of three cases: first inner block (reset, then add),
  a middle one (add), the last one (add, then store the output).
-/
import proofs.«127610_j17051020165440_1_alg».proof.Proof.Gen.Kernel.Launch
import proofs.«127610_j17051020165440_1_alg».proof.Proof.Gen.Kernel.Skeleton
import proofs.«127610_j17051020165440_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- "This is the first inner block": the body's first branch, from the grid coordinates. -/
abbrev isFirst (i : grid1.Coords) : Prop :=
  (Scalar.cmpi .ne (Scalar.extui (Scalar.cmpi .eq (BitVec.ofNat 32 (i 2).val) 0#32)) 0#32) = 1#1
/-- It holds at the points ≡ 0 (mod 28). -/
theorem isFirst_iff : ∀ t : Fin cfg1.N, isFirst (grid1.coords t) ↔ t.val % 28 = 0 :=
  (by decide +kernel : ∀ t : Fin grid1.N, isFirst (grid1.coords t) ↔ t.val % 28 = 0)

/-- "This is the last inner block": the body's second branch. -/
abbrev isLast (i : grid1.Coords) : Prop := k1_cond2 i = 1#1
/-- It holds at the points ≡ 27 (mod 28). -/
theorem isLast_iff : ∀ t : Fin cfg1.N, isLast (grid1.coords t) ↔ t.val % 28 = 27 :=
  (by decide +kernel : ∀ t : Fin grid1.N, isLast (grid1.coords t) ↔ t.val % 28 = 27)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last inner block the output window is idle, and not written back. -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- At the last inner block it is live. -/
theorem live1_3 : ∀ t : Fin cfg1.N, isLast (grid1.coords t) → cfg1.idle 3 (grid1.coords t) = false := by decide +kernel

/-! ## The body's accesses: each the whole of its buffer -/

abbrev rH : Rect S512x512 := Rect.unit (s := S512x512) ![0, 0] S512x512.size inb_S512x512_S512x512_0_0
abbrev rWd : Rect S2048x512 := Rect.unit (s := S2048x512) ![0, 0] S2048x512.size inb_S2048x512_S2048x512_0_0
abbrev rW : Rect S512x1 := Rect.unit (s := S512x1) ![0, 0] S512x1.size inb_S512x1_S512x1_0_0
abbrev rAcc : Rect S512x2048 := Rect.unit (s := S512x2048) ![0, 0] S512x2048.size inb_S512x2048_S512x2048_0_0

theorem hz2 : (![0, 0] : Fin 2 → Nat) = fun _ => 0 := by funext a; fin_cases a <;> rfl

/-- A list of stores whose LAST one is over the whole buffer covers it. -/
theorem cover_whole_head {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

/-! ## The body's triple, case by case -/

set_option maxHeartbeats 2000000 in
/-- A MIDDLE inner block: with the activation block `x0`, the weight block `x1` and the accumulator at `xs`, the body leaves
    the accumulator at `xs` plus their product. -/
theorem run_mid (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : ¬isFirst i) (hc1 : ¬isLast i)
    (x0 : Vec F S512x512 .bf16) (x1 : Vec F S2048x512 .bf16) (xs : Vec F S512x2048 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 x1 xs)) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (View.cover_of_tiled _ S512x2048.size (by rfl)), View.canon_unit_zero hz2]
  simp only [View.readAt_eq_ld, View.ld_unit_zero (S := S512x512) hz2, View.ld_unit_zero (S := S2048x512) hz2,
    View.ld_unit_zero (S := S512x2048) hz2]

set_option maxHeartbeats 2000000 in
/-- The FIRST inner block: whatever the accumulator held, the body leaves it at zero plus the product. -/
theorem run_first (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : isFirst i) (hc1 : ¬isLast i)
    (x0 : Vec F S512x512 .bf16) (x1 : Vec F S2048x512 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover_whole_head hz2 _ _ _), View.canon_cons_unit_zero hz2]
  simp only [View.readAt_eq_ld, View.ld_unit_zero (S := S512x512) hz2, View.ld_unit_zero (S := S2048x512) hz2,
    View.readCov_unit_zero (S := S512x2048) _ hz2]

set_option maxHeartbeats 2000000 in
/-- The LAST inner block: the accumulator takes the product as at a middle block, and the output's buffer is left at the
    new accumulator times the routing weights' column `xw`. -/
theorem run_last (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : ¬isFirst i) (hc1 : isLast i)
    (x0 : Vec F S512x512 .bf16) (x1 : Vec F S2048x512 .bf16) (xw : Vec F S512x1 .f32) (xs : Vec F S512x2048 .f32) (K : PUnit → sProp 𝕄) :
    iprop(owns (c : Thread nD τ) arg3 fullShare x0 ∗ owns (c : Thread nD τ) arg4 fullShare x1 ∗ owns (c : Thread nD τ) arg5 fullShare xw
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare xw
            ∗ owns (c : Thread nD τ) arg6 fullShare (k1_pay3 (k1_pay2 x0 x1 xs) xw)
            ∗ owns (c : Thread nD τ) arg7 fullShare (k1_pay2 x0 x1 xs)) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%fw, %hfw, HW⟩, ⟨%d6, %f6, -, H6⟩, ⟨%fs, %hfs, HS⟩, Hk⟩
  subst hf0; subst hf1; subst hfw; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HW]
  · iexists fw; isplitr; · ipureintro; rfl
    iexact HW
  isplitl [H6]
  · iexists _; isplitr
    swap; · iexact H6
    ipureintro
    sl_unfold_words
    rw [View.read_writes_eq_canon _ _ _ (cover_whole_head hz2 _ _ _), View.canon_unit_zero hz2]
    simp only [View.readAt_eq_ld, View.ld_unit_zero (S := S512x512) hz2, View.ld_unit_zero (S := S2048x512) hz2,
      View.ld_unit_zero (S := S512x2048) hz2, View.ld_unit_zero (S := S512x1) hz2, View.readCov_unit_zero (S := S512x2048) _ hz2]
  iexists _; isplitr
  swap; · iexact HS
  ipureintro
  sl_unfold_words
  rw [View.read_writes_eq_canon _ _ _ (cover_whole_head hz2 _ _ _), View.canon_unit_zero hz2]
  simp only [View.readAt_eq_ld, View.ld_unit_zero (S := S512x512) hz2, View.ld_unit_zero (S := S2048x512) hz2,
    View.ld_unit_zero (S := S512x2048) hz2]

/-! ## The windows' blocks, at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The down weights' block likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The routing weights' column likewise: it is fetched only when the token block moves, and stays in place between. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, as the pipeline passes it to the body, and the scratch. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
abbrev scM1 : Memref sig .tc .vmem S512x2048 .f32 := Memref.whole cc1_scratch0

/-! ## The accumulation -/

/-- THE ACCUMULATOR after the body at position `n`: at a first inner block, zero plus the point's product; at any other,
    what the point before left plus the point's product. -/
def accAt1 (c : Dev nD) : (n : ℕ) → n < cfg1.N → Vec F S512x2048 .f32
  | 0, hn => k1_pay2 (iblk1 V c 0 ⟨0, hn⟩) (iblk1 V c 1 ⟨0, hn⟩) (k1_pay1 (F := F))
  | n + 1, hn =>
    if (n + 1) % 28 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 28 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 28 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-- What the body stores into the output's buffer at a last inner block: the accumulator times the routing column. -/
def outAt1 (c : Dev nD) (t : Fin cfg1.N) : Vec F S512x2048 .f32 :=
  k1_pay3 (accAt1 V c t.val t.isLt) (iblk1 V c 2 t)

/-! ## The invariant: the accumulator's contents are carried from point to point -/

/-- The core's scoped buffers other than this region's staging buffers and its scratch, each at some contents. -/
def others1 (c : Dev nD) : sProp 𝕄 :=
  Pipeline.scopedRestBut (Ix := Unit) (Name := ℕ) (U := UR sig nD τ) (Lvl := ℕ) (Val := Elt F) spec1 c [cc1_scratch0]

/-- What the launch hands the region: the scratch at some contents, the other scoped buffers, the generator register. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole, BI.bigSepL_singleton]
  rfl

/-- Before position `n`: before the first point what the launch handed over; afterwards the scratch at what the point
    before left in it. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ others1 c) ∗ (∃ r, prngReg c r)) := by
  cases n with
  | zero => exact absurd rfl hz
  | succ n => rfl

/-! ## The region's proof data -/

/-- The proof data of the down-projection pipeline on core `c`: the arrays as the region finds them; after the body each
    input's buffer at its block and the output's at `outAt1` (consulted only where the body stores it); the invariant carries
    the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns: each window's buffer at what the body leaves, or — the output away from a last inner block —
    as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3_last (c : Dev nD) (t : Fin cfg1.N) (h : isLast (grid1.coords t)) :
    (dat1 V c).leavesExact 3 t = owns (c : Thread nD τ) (ms1_3 t) fullShare (outAt1 V c t) := by
  unfold Dat.leavesExact; rw [live1_3 t h, after1_3]

set_option maxHeartbeats 4000000 in
/-- The body at any point. The closed forms say which of the three cases the point is in; the inputs' buffers hold their
    blocks; the invariant hands the body the accumulator at what the point before left (at anything before the first point)
    and takes it back at this point's contents; what the core owes passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 448 := lt_of_lt_of_eq t.isLt (show cfg1.N = 448 from N_1)
  by_cases h0 : t.val % 28 = 0
  · -- a first inner block
    have hl : ¬isLast (grid1.coords t) := fun h => by have := (isLast_iff t).mp h; omega
    rw [Dat.leavesExact_idle (dat1 V c) 3 t (idle1_3 t hl) (noFlush1_3 t hl)]
    rw [accAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl (iblk1 V c 0 t) (iblk1 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬isFirst (grid1.coords t) := fun h => h0 ((isFirst_iff t).mp h)
    have hz : t.val ≠ 0 := fun h => h0 (by rw [h])
    rw [accAt1_next V c t h0]
    rw [PhiS1_castSucc V c t, PhiS1_pos V c _ _ hz]
    by_cases h1 : t.val % 28 = 27
    · -- a last inner block
      have hl : isLast (grid1.coords t) := (isLast_iff t).mpr h1
      rw [leaves1_3_last V c t hl]
      unfold outAt1
      rw [accAt1_next V c t h0]
      iintro ⟨⟨⟨HS, HR⟩, Hg⟩, Ho, ⟨%d0, H0⟩, ⟨%d1, H1⟩, ⟨%d2, H2⟩, ⟨%d3, H3⟩⟩
      iapply (run_last c Set.univ (grid1.coords t) _ _ _ _ _ _ _ _ _ _ hf hl (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle inner block
      have hl : ¬isLast (grid1.coords t) := fun h => h1 ((isLast_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (run_mid c Set.univ (grid1.coords t) _ _ _ _ _ _ _ _ _ _ hf hl (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 448 := N_1; omega), PhiA1_eq]
  iintro ⟨⟨HS, HR⟩, Hg⟩
  isplitl [HS HR]
  · isplitl [HS]; · iexists _; iexact HS
    iexact HR
  iexact Hg

end Cert.Kernel.Down

end
-- ==== Proof.KLaunch.lean ====
/-
  The launch: the two kernel regions as segments of the program, between the contents of the core's buffers that the host
  operations and the regions leave.

  When the gate / up region is entered the buffers hold what the host operations made of the launch memory; the region
  changes one buffer, its output array, which ends at what its write-backs leave. The down-projection region is entered from
  those contents and changes one buffer more, the program's result. Each region's record says: its arrays are sorted out of
  the unscoped buffers at entry and put back at exit, at their final contents; the generator register goes into the
  region's invariant and comes back; nothing is owed to any other core; the kernels have no semaphore of their own.
-/
import proofs.«127610_j17051020165440_1_alg».proof.Proof.Gen.Kernel.Regions
import proofs.«127610_j17051020165440_1_alg».proof.Proof.KGateUp
import proofs.«127610_j17051020165440_1_alg».proof.Proof.KDown
import Idealize.ShloMosaic.Lib.Pipeline.RegionsLoop
import Idealize.ShloMosaic.Lib.Pipeline.FrameSuffix

set_option maxRecDepth 16384

noncomputable section

namespace Cert.Kernel.Launch

open Cert.Kernel Cert.Kernel.Gen Cert.Kernel.GateUp Cert.Kernel.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region's entry contents, read at the TensorCore's references. -/
abbrev entry0 (c : Dev nD) (b : Ref sig .tc) : Buf (Elt F) ((c : Thread nD τ).loc b) := Gen.V2 m c (Proc.devRef .tc b)

/-- What the first region leaves in its output array. -/
def left6 (c : Dev nD) : Buf (Elt F) ((c : Thread nD τ).loc main_v6) := (dat0 (entry0 m) c).arrAt 3 cfg0.N

/-- The buffers after the first region. -/
abbrev val1 (c : Dev nD) : Valuation τ sig (Elt F) := Function.update (Gen.V2 m c) main_v6 (left6 m c)

/-- The second region's entry contents, read at the TensorCore's references. -/
abbrev entry1 (c : Dev nD) (b : Ref sig .tc) : Buf (Elt F) ((c : Thread nD τ).loc b) := val1 m c (Proc.devRef .tc b)

/-- What the second region leaves in its output array: the program's result. -/
def left7 (c : Dev nD) : Buf (Elt F) ((c : Thread nD τ).loc main_v7) := (dat1 (entry1 m) c).arrAt 3 cfg1.N

/-- The buffers after the second region. -/
abbrev val2 (c : Dev nD) : Valuation τ sig (Elt F) := Function.update (val1 m c) main_v7 (left7 m c)

/-- What the regions leave in the buffers they may change. -/
def outs : Gen.Outs (F := F) := fun _ r c =>
  if h : r = main_v6 then h ▸ left6 m c else if h' : r = main_v7 then h' ▸ left7 m c else m ((c : Thread nD τ).loc r)

theorem outs_v6 (J : ℕ) (c : Dev nD) : outs m J main_v6 c = left6 m c := by
  unfold outs; rw [dif_pos rfl]
theorem outs_v7 (J : ℕ) (c : Dev nD) : outs m J main_v7 c = left7 m c := by
  unfold outs; rw [dif_neg (by decide), dif_pos rfl]

theorem V3_eq (c : Dev nD) : Gen.V3 m (outs m) c = val1 m c := by
  show Function.update (Gen.V2 m c) main_v6 (outs m 3 main_v6 c) = _
  rw [outs_v6]
theorem V4_eq (c : Dev nD) : Gen.V4 m (outs m) c = val2 m c := by
  show Function.update (Gen.V3 m (outs m) c) main_v7 (outs m 4 main_v7 c) = _
  rw [outs_v7, V3_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The first region -/

/-- At the first region's exit each of its arrays holds what the pipeline leaves, -/
theorem hF0 (c : Dev nD) (w : Fin cfg0.W) : (dat0 (entry0 m) c).arrAt w cfg0.N = entry1 m c (Pipeline.arrRef spec0 w) := by
  match w with
  | ⟨0, _⟩ =>
    exact ((dat0 (entry0 m) c).arrAt_in 0 rfl _).trans ((A_eq0 (entry0 m) c 0).trans
      (Function.update_of_ne (StableHlo.devRef_ne_of_ne (by decide) : (Proc.devRef .tc main_v1 : DevRef τ sig) ≠ Proc.devRef .tc main_v6) _ _).symm)
  | ⟨1, _⟩ =>
    exact ((dat0 (entry0 m) c).arrAt_in 1 rfl _).trans ((A_eq0 (entry0 m) c 1).trans
      (Function.update_of_ne (StableHlo.devRef_ne_of_ne (by decide) : (Proc.devRef .tc main_v2 : DevRef τ sig) ≠ Proc.devRef .tc main_v6) _ _).symm)
  | ⟨2, _⟩ =>
    exact ((dat0 (entry0 m) c).arrAt_in 2 rfl _).trans ((A_eq0 (entry0 m) c 2).trans
      (Function.update_of_ne (StableHlo.devRef_ne_of_ne (by decide) : (Proc.devRef .tc main_v3 : DevRef τ sig) ≠ Proc.devRef .tc main_v6) _ _).symm)
  | ⟨3, _⟩ => exact (Function.update_self (Proc.devRef .tc main_v6 : DevRef τ sig) (left6 m c) (Gen.V2 m c)).symm
/-- and every other buffer what it held at entry. -/
theorem hrest0 (c : Dev nD) : ∀ b, b ∉ Finset.univ.image (Pipeline.arrRef spec0) → entry1 m c b = entry0 m c b :=
  fun b hb => Function.update_of_ne (StableHlo.devRef_ne_of_ne fun e => hb (Finset.mem_image.mpr ⟨3, Finset.mem_univ _, e.symm⟩)) _ _

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V2 m c) ∗ E 0 c)
  post c := iprop(StableHlo.held (c : Thread nD τ) (Pipeline.ucRefs τ sig) (Gen.V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [Pipeline.unscopedBufs_held] at hjoin
    rw [V3_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The buffers after the second region, read at the TensorCore's references. -/
abbrev exit1 (c : Dev nD) (b : Ref sig .tc) : Buf (Elt F) ((c : Thread nD τ).loc b) := val2 m c (Proc.devRef .tc b)

/-- At the second region's exit each of its arrays holds what the pipeline leaves, -/
theorem hF1 (c : Dev nD) (w : Fin cfg1.W) : (dat1 (entry1 m) c).arrAt w cfg1.N = exit1 m c (Pipeline.arrRef spec1 w) := by
  match w with
  | ⟨0, _⟩ =>
    exact ((dat1 (entry1 m) c).arrAt_in 0 rfl _).trans ((A_eq1 (entry1 m) c 0).trans
      (Function.update_of_ne (StableHlo.devRef_ne_of_ne (by decide) : (Proc.devRef .tc main_v6 : DevRef τ sig) ≠ Proc.devRef .tc main_v7) _ _).symm)
  | ⟨1, _⟩ =>
    exact ((dat1 (entry1 m) c).arrAt_in 1 rfl _).trans ((A_eq1 (entry1 m) c 1).trans
      (Function.update_of_ne (StableHlo.devRef_ne_of_ne (by decide) : (Proc.devRef .tc main_v4 : DevRef τ sig) ≠ Proc.devRef .tc main_v7) _ _).symm)
  | ⟨2, _⟩ =>
    exact ((dat1 (entry1 m) c).arrAt_in 2 rfl _).trans ((A_eq1 (entry1 m) c 2).trans
      (Function.update_of_ne (StableHlo.devRef_ne_of_ne (by decide) : (Proc.devRef .tc main_v5 : DevRef τ sig) ≠ Proc.devRef .tc main_v7) _ _).symm)
  | ⟨3, _⟩ => exact (Function.update_self (Proc.devRef .tc main_v7 : DevRef τ sig) (left7 m c) (val1 m c)).symm
/-- and every other buffer what it held at entry. -/
theorem hrest1 (c : Dev nD) : ∀ b, b ∉ Finset.univ.image (Pipeline.arrRef spec1) → exit1 m c b = entry1 m c b :=
  fun b hb => Function.update_of_ne (StableHlo.devRef_ne_of_ne fun e => hb (Finset.mem_image.mpr ⟨3, Finset.mem_univ _, e.symm⟩)) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    refine BIBase.Entails.trans (hout1 (entry1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    rw [V4_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch element is the pipelines' ghost state and nothing else. -/
theorem launch_ghost :
    (ownU (initOf (Pipeline.cells cfgs cellOf_inj) (Pipeline.launchToks cfgs cellOf_inj)) : sProp 𝕄)
      ⊢ |={Set.univ}=> iprop(BI.own ((emb₁ : Emb (URounds (GSem nD τ sig) Unit) 𝕄) (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- What the launch leaves on every core beside the buffers makes the first rest state. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- Every weakly fair execution of the program terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (URounds (GSem nD τ sig) Unit) 𝕄) () 𝒱₀ L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_ghost
    E (rest_init ρ) (fun c => by iintro ⟨-, H⟩; iexact H)
    (reg0 m) (fun _ => .rfl) (fun _ => .rfl) (reg1 m) (fun _ => .rfl) (fun _ => .rfl)

/-! ## The same run with the result named -/

-- the launch theorem's implicit arguments are found by unifying its conclusion with this one, which takes unfolding
-- plain definitions in a metavariable's type
set_option backward.isDefEq.respectTransparency.types false in
/-- Every weakly fair execution of the program terminates, nothing faulting, with the result's buffer at what the second
    region's write-backs leave and every argument array as launched: the same launch over the same segments, the last
    boundary's contents read at one buffer more. -/
theorem run_named (ρ : Dev nD → PrngReg) : θ_run defs (onTc (τ := τ) (main (F := F))) ⟨m, fun _ => 0, ρ⟩ (fun r => ∀ c : Dev nD,
      r.2.mem ((c.tc : Thread nD τ).loc main_v7) = left7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj (emb₁ : Emb (URounds (GSem nD τ sig) Unit) 𝕄) defs₀ 𝒱₀ L lv m ρ main
    (Gen.segs m 𝒱₀ L lv E () (pdats m) (reg0 m) (reg1 m))
    (fun c Q => by
      rewrite [main_chain c, Pipeline.Seg.run_eq_chain,
        show (Gen.segs m 𝒱₀ L lv E () (pdats m) (reg0 m) (reg1 m) c).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_ghost
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := ?_) (QY := fun c s => s.mem ((c.tc : Thread nD τ).loc main_v7) = left7 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E (F := F) 0)]
    isplitl [Hh]; · iexact Hh
    iexact HE
  · -- the end: the result's buffer and each argument's read off the last boundary's contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans
          ((congrFun (V4_eq m c) _).trans (Function.update_self (Proc.devRef .tc main_v7 : DevRef τ sig) (left7 m c) (val1 m c))),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c)⟩
    · iexact HSI

end Cert.Kernel.Launch

end
-- ==== Proof.KIGateUp.lean ====
/-
  The gate / up region (the first kernel launch), at any float instance and at any contents `V` of the core's buffers at
  the region's entry.

  The grid has 28 × 8 points: the outer coordinate picks a block of 512 rows of the gate and up weights, the inner one a
  block of 512 selected tokens. At a point the body reads the three staged input blocks whole — 512 tokens by all 4096
  input features, and 512 weight rows by all 4096 input features, twice — and stores ONE value over the whole 512 × 512
  output block: the activation of those tokens against those weight rows. It keeps nothing from point to point. So the
  region's proof data is: every input's staging buffer holds its block of the entry array at every point (whether the point
  fetches it or the block index has not moved), and the output's staging buffer after the body holds that one stored value
  of the three input blocks.
-/
import proofs.«127610_j17051020165440_1_alg».proof.Proof.Gen.KernelIdeal.Launch
import proofs.«127610_j17051020165440_1_alg».proof.Proof.Gen.KernelIdeal.Skeleton
import proofs.«127610_j17051020165440_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token block is in its staging buffer at every point: for any proof data over the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The gate weights' block likewise: it is fetched only when the outer coordinate moves, and stays in place between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The up weights' block likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rIn0 : Rect S512x4096 := Rect.unit (s := S512x4096) ![0, 0] S512x4096.size inb_S512x4096_S512x4096_0_0
abbrev rOut0 : Rect S512x512 := Rect.unit (s := S512x512) ![0, 0] S512x512.size inb_S512x512_S512x512_0_0

/-- What the body leaves in the output's staging buffer: its one store, the activation of the token block against the two
    weight blocks, over the whole buffer. -/
def out0_3 (x0 x1 x2 : Vec F S512x4096 .bf16) : Vec F S512x512 .bf16 :=
  View.canon [⟨rOut0, k0_pay1 (View.ld x0 rIn0) (View.ld x1 rIn0) (View.ld x2 rIn0)⟩]

/-- The one store covers the buffer. -/
theorem cover0_3 (p0 : Vec F S512x512 .bf16) (y : S512x512.Idx) :
    ∃ pc ∈ ([⟨rOut0, p0⟩] : List (View.Piece (Elt F) S512x512 .bf16)), y ∈ pc.1.set :=
  View.cover_of_tiled [⟨rOut0, p0⟩] S512x512.size (by rfl) y

/-! ## The body's triple -/

set_option maxHeartbeats 1000000 in
/-- On whole staging buffers — the inputs' at contents `x0`, `x1`, `x2`, the output's at anything — the body runs to its
    continuation with the inputs as they were and the output's buffer at `out0_3` of them. -/
theorem sound_kernel0 (c : Dev nD) (E : Set ℕ) (i : grid0.Coords)
    (arg2 : Memref sig .tc .vmem S512x4096 .bf16) (harg2 : arg2.IsWhole) (arg3 : Memref sig .tc .vmem S512x4096 .bf16) (harg3 : arg3.IsWhole)
    (arg4 : Memref sig .tc .vmem S512x4096 .bf16) (harg4 : arg4.IsWhole) (arg5 : Memref sig .tc .vmem S512x512 .bf16) (harg5 : arg5.IsWhole)
    (x0 x1 x2 : Vec F S512x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__gate_up_kernel i arg2 harg2 arg3 harg3 arg4 harg4 arg5 harg5) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the gate / up pipeline on core `c`: the arrays as the region finds them; after the body at point
    `t` each input's buffer at its block and the output's at `out0_3` of the three input blocks; the invariant says only
    that the scoped buffers no window stages and the generator register are there, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.GateUp

end
-- ==== Proof.KIDown.lean ====
/-
  The down-projection region (the second kernel launch), at any float instance and at any contents `V` of the core's
  buffers at the region's entry.

  The grid has 8 × 2 × 28 points: a block of 512 tokens, a block of 2048 output features, and — innermost — a block of
  512 inner features, the axis the projection sums over. The body keeps an accumulator (512 × 2048) in a scratch buffer
  from point to point: at the first inner block it stores zero into it; at every point it adds the product of the
  activation block (512 tokens × 512 inner features) with the down-weight block (2048 output features × 512 inner features,
  contracted along the inner features) to it; at the last inner block it stores the accumulator times the tokens' routing
  weights (a 512 × 1 column, broadcast along the row) into the output's staging buffer, which is written back at exactly
  those points and left untouched at the others. So a point is in one of three cases: first inner block (reset, then add),
  a middle one (add), the last one (add, then store the output).
-/
import proofs.«127610_j17051020165440_1_alg».proof.Proof.Gen.KernelIdeal.Launch
import proofs.«127610_j17051020165440_1_alg».proof.Proof.Gen.KernelIdeal.Skeleton
import proofs.«127610_j17051020165440_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- "This is the first inner block": the body's first branch, from the grid coordinates. -/
abbrev isFirst (i : grid1.Coords) : Prop :=
  (Scalar.cmpi .ne (Scalar.extui (Scalar.cmpi .eq (BitVec.ofNat 32 (i 2).val) 0#32)) 0#32) = 1#1
/-- It holds at the points ≡ 0 (mod 28). -/
theorem isFirst_iff : ∀ t : Fin cfg1.N, isFirst (grid1.coords t) ↔ t.val % 28 = 0 :=
  (by decide +kernel : ∀ t : Fin grid1.N, isFirst (grid1.coords t) ↔ t.val % 28 = 0)

/-- "This is the last inner block": the body's second branch. -/
abbrev isLast (i : grid1.Coords) : Prop := k1_cond2 i = 1#1
/-- It holds at the points ≡ 27 (mod 28). -/
theorem isLast_iff : ∀ t : Fin cfg1.N, isLast (grid1.coords t) ↔ t.val % 28 = 27 :=
  (by decide +kernel : ∀ t : Fin grid1.N, isLast (grid1.coords t) ↔ t.val % 28 = 27)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last inner block the output window is idle, and not written back. -/
theorem idle1_3 : ∀ t : Fin cfg1.N, ¬isLast (grid1.coords t) → cfg1.idle 3 (grid1.coords t) = true := by decide +kernel
theorem noFlush1_3 : ∀ t : Fin cfg1.N, ¬isLast (grid1.coords t) → (cfg1.win 3).flush t = false := by decide +kernel
/-- At the last inner block it is live. -/
theorem live1_3 : ∀ t : Fin cfg1.N, isLast (grid1.coords t) → cfg1.idle 3 (grid1.coords t) = false := by decide +kernel

/-! ## The body's accesses: each the whole of its buffer -/

abbrev rH : Rect S512x512 := Rect.unit (s := S512x512) ![0, 0] S512x512.size inb_S512x512_S512x512_0_0
abbrev rWd : Rect S2048x512 := Rect.unit (s := S2048x512) ![0, 0] S2048x512.size inb_S2048x512_S2048x512_0_0
abbrev rW : Rect S512x1 := Rect.unit (s := S512x1) ![0, 0] S512x1.size inb_S512x1_S512x1_0_0
abbrev rAcc : Rect S512x2048 := Rect.unit (s := S512x2048) ![0, 0] S512x2048.size inb_S512x2048_S512x2048_0_0

theorem hz2 : (![0, 0] : Fin 2 → Nat) = fun _ => 0 := by funext a; fin_cases a <;> rfl

/-- A list of stores whose LAST one is over the whole buffer covers it. -/
theorem cover_whole_head {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

/-! ## The body's triple, case by case -/

set_option maxHeartbeats 2000000 in
/-- A MIDDLE inner block: with the activation block `x0`, the weight block `x1` and the accumulator at `xs`, the body leaves
    the accumulator at `xs` plus their product. -/
theorem run_mid (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : ¬isFirst i) (hc1 : ¬isLast i)
    (x0 : Vec F S512x512 .bf16) (x1 : Vec F S2048x512 .bf16) (xs : Vec F S512x2048 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 x1 xs)) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (View.cover_of_tiled _ S512x2048.size (by rfl)), View.canon_unit_zero hz2]
  simp only [View.readAt_eq_ld, View.ld_unit_zero (S := S512x512) hz2, View.ld_unit_zero (S := S2048x512) hz2,
    View.ld_unit_zero (S := S512x2048) hz2]

set_option maxHeartbeats 2000000 in
/-- The FIRST inner block: whatever the accumulator held, the body leaves it at zero plus the product. -/
theorem run_first (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : isFirst i) (hc1 : ¬isLast i)
    (x0 : Vec F S512x512 .bf16) (x1 : Vec F S2048x512 .bf16) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover_whole_head hz2 _ _ _), View.canon_cons_unit_zero hz2]
  simp only [View.readAt_eq_ld, View.ld_unit_zero (S := S512x512) hz2, View.ld_unit_zero (S := S2048x512) hz2,
    View.readCov_unit_zero (S := S512x2048) _ hz2]

set_option maxHeartbeats 2000000 in
/-- The LAST inner block: the accumulator takes the product as at a middle block, and the output's buffer is left at the
    new accumulator times the routing weights' column `xw`. -/
theorem run_last (c : Dev nD) (E : Set ℕ) (i : grid1.Coords)
    (arg3 : Memref sig .tc .vmem S512x512 .bf16) (harg3 : arg3.IsWhole) (arg4 : Memref sig .tc .vmem S2048x512 .bf16) (harg4 : arg4.IsWhole)
    (arg5 : Memref sig .tc .vmem S512x1 .f32) (harg5 : arg5.IsWhole) (arg6 : Memref sig .tc .vmem S512x2048 .f32) (harg6 : arg6.IsWhole)
    (arg7 : Memref sig .tc .vmem S512x2048 .f32) (harg7 : arg7.IsWhole) (hc0 : ¬isFirst i) (hc1 : isLast i)
    (x0 : Vec F S512x512 .bf16) (x1 : Vec F S2048x512 .bf16) (xw : Vec F S512x1 .f32) (xs : Vec F S512x2048 .f32) (K : PUnit → sProp 𝕄) :
    iprop(owns (c : Thread nD τ) arg3 fullShare x0 ∗ owns (c : Thread nD τ) arg4 fullShare x1 ∗ owns (c : Thread nD τ) arg5 fullShare xw
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare xw
            ∗ owns (c : Thread nD τ) arg6 fullShare (k1_pay3 (k1_pay2 x0 x1 xs) xw)
            ∗ owns (c : Thread nD τ) arg7 fullShare (k1_pay2 x0 x1 xs)) -∗ K ⟨⟩))
      ⊢ wp frame (wpE (defs₀ (F := F)) Variants.none c none) E (cc1__down_kernel i arg3 harg3 arg4 harg4 arg5 harg5 arg6 harg6 arg7 harg7) K := by
  simp only [cc1__down_kernel_eq_skeleton]; unfold cc1__down_kernel_skel
  unfold owns
  iintro ⟨⟨%f0, %hf0, H0⟩, ⟨%f1, %hf1, H1⟩, ⟨%fw, %hfw, HW⟩, ⟨%d6, %f6, -, H6⟩, ⟨%fs, %hfs, HS⟩, Hk⟩
  subst hf0; subst hf1; subst hfw; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HW]
  · iexists fw; isplitr; · ipureintro; rfl
    iexact HW
  isplitl [H6]
  · iexists _; isplitr
    swap; · iexact H6
    ipureintro
    sl_unfold_words
    rw [View.read_writes_eq_canon _ _ _ (cover_whole_head hz2 _ _ _), View.canon_unit_zero hz2]
    simp only [View.readAt_eq_ld, View.ld_unit_zero (S := S512x512) hz2, View.ld_unit_zero (S := S2048x512) hz2,
      View.ld_unit_zero (S := S512x2048) hz2, View.ld_unit_zero (S := S512x1) hz2, View.readCov_unit_zero (S := S512x2048) _ hz2]
  iexists _; isplitr
  swap; · iexact HS
  ipureintro
  sl_unfold_words
  rw [View.read_writes_eq_canon _ _ _ (cover_whole_head hz2 _ _ _), View.canon_unit_zero hz2]
  simp only [View.readAt_eq_ld, View.ld_unit_zero (S := S512x512) hz2, View.ld_unit_zero (S := S2048x512) hz2,
    View.ld_unit_zero (S := S512x2048) hz2]

/-! ## The windows' blocks, at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The down weights' block likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The routing weights' column likewise: it is fetched only when the token block moves, and stays in place between. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, as the pipeline passes it to the body, and the scratch. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
abbrev scM1 : Memref sig .tc .vmem S512x2048 .f32 := Memref.whole cc1_scratch0

/-! ## The accumulation -/

/-- THE ACCUMULATOR after the body at position `n`: at a first inner block, zero plus the point's product; at any other,
    what the point before left plus the point's product. -/
def accAt1 (c : Dev nD) : (n : ℕ) → n < cfg1.N → Vec F S512x2048 .f32
  | 0, hn => k1_pay2 (iblk1 V c 0 ⟨0, hn⟩) (iblk1 V c 1 ⟨0, hn⟩) (k1_pay1 (F := F))
  | n + 1, hn =>
    if (n + 1) % 28 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 28 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 28 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-- What the body stores into the output's buffer at a last inner block: the accumulator times the routing column. -/
def outAt1 (c : Dev nD) (t : Fin cfg1.N) : Vec F S512x2048 .f32 :=
  k1_pay3 (accAt1 V c t.val t.isLt) (iblk1 V c 2 t)

/-! ## The invariant: the accumulator's contents are carried from point to point -/

/-- The core's scoped buffers other than this region's staging buffers and its scratch, each at some contents. -/
def others1 (c : Dev nD) : sProp 𝕄 :=
  Pipeline.scopedRestBut (Ix := Unit) (Name := ℕ) (U := UR sig nD τ) (Lvl := ℕ) (Val := Elt F) spec1 c [cc1_scratch0]

/-- What the launch hands the region: the scratch at some contents, the other scoped buffers, the generator register. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [scM1, owns_whole, BI.bigSepL_singleton]
  rfl

/-- Before position `n`: before the first point what the launch handed over; afterwards the scratch at what the point
    before left in it. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega)) ∗ others1 c) ∗ (∃ r, prngReg c r)) := by
  cases n with
  | zero => exact absurd rfl hz
  | succ n => rfl

/-! ## The region's proof data -/

/-- The proof data of the down-projection pipeline on core `c`: the arrays as the region finds them; after the body each
    input's buffer at its block and the output's at `outAt1` (consulted only where the body stores it); the invariant carries
    the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns: each window's buffer at what the body leaves, or — the output away from a last inner block —
    as it was found. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3_last (c : Dev nD) (t : Fin cfg1.N) (h : isLast (grid1.coords t)) :
    (dat1 V c).leavesExact 3 t = owns (c : Thread nD τ) (ms1_3 t) fullShare (outAt1 V c t) := by
  unfold Dat.leavesExact; rw [live1_3 t h, after1_3]

set_option maxHeartbeats 4000000 in
/-- The body at any point. The closed forms say which of the three cases the point is in; the inputs' buffers hold their
    blocks; the invariant hands the body the accumulator at what the point before left (at anything before the first point)
    and takes it back at this point's contents; what the core owes passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 448 := lt_of_lt_of_eq t.isLt (show cfg1.N = 448 from N_1)
  by_cases h0 : t.val % 28 = 0
  · -- a first inner block
    have hl : ¬isLast (grid1.coords t) := fun h => by have := (isLast_iff t).mp h; omega
    rw [Dat.leavesExact_idle (dat1 V c) 3 t (idle1_3 t hl) (noFlush1_3 t hl)]
    rw [accAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl (iblk1 V c 0 t) (iblk1 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run_first c Set.univ (grid1.coords t) _ _ _ _ _ _ _ _ _ _ ((isFirst_iff t).mpr h0) hl (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬isFirst (grid1.coords t) := fun h => h0 ((isFirst_iff t).mp h)
    have hz : t.val ≠ 0 := fun h => h0 (by rw [h])
    rw [accAt1_next V c t h0]
    rw [PhiS1_castSucc V c t, PhiS1_pos V c _ _ hz]
    by_cases h1 : t.val % 28 = 27
    · -- a last inner block
      have hl : isLast (grid1.coords t) := (isLast_iff t).mpr h1
      rw [leaves1_3_last V c t hl]
      unfold outAt1
      rw [accAt1_next V c t h0]
      iintro ⟨⟨⟨HS, HR⟩, Hg⟩, Ho, ⟨%d0, H0⟩, ⟨%d1, H1⟩, ⟨%d2, H2⟩, ⟨%d3, H3⟩⟩
      iapply (run_last c Set.univ (grid1.coords t) _ _ _ _ _ _ _ _ _ _ hf hl (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle inner block
      have hl : ¬isLast (grid1.coords t) := fun h => h1 ((isLast_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (run_mid c Set.univ (grid1.coords t) _ _ _ _ _ _ _ _ _ _ hf hl (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 448 := N_1; omega), PhiA1_eq]
  iintro ⟨⟨HS, HR⟩, Hg⟩
  isplitl [HS HR]
  · isplitl [HS]; · iexists _; iexact HS
    iexact HR
  iexact Hg

end Cert.KernelIdeal.Down

end
-- ==== Proof.KILaunch.lean ====
/-
  The launch: the two kernel regions as segments of the program, between the contents of the core's buffers that the host
  operations and the regions leave.

  When the gate / up region is entered the buffers hold what the host operations made of the launch memory; the region
  changes one buffer, its output array, which ends at what its write-backs leave. The down-projection region is entered from
  those contents and changes one buffer more, the program's result. Each region's record says: its arrays are sorted out of
  the unscoped buffers at entry and put back at exit, at their final contents; the generator register goes into the
  region's invariant and comes back; nothing is owed to any other core; the kernels have no semaphore of their own.
-/
import proofs.«127610_j17051020165440_1_alg».proof.Proof.Gen.KernelIdeal.Regions
import proofs.«127610_j17051020165440_1_alg».proof.Proof.KIGateUp
import proofs.«127610_j17051020165440_1_alg».proof.Proof.KIDown
import Idealize.ShloMosaic.Lib.Pipeline.RegionsLoop
import Idealize.ShloMosaic.Lib.Pipeline.FrameSuffix

set_option maxRecDepth 16384

noncomputable section

namespace Cert.KernelIdeal.Launch

open Cert.KernelIdeal Cert.KernelIdeal.Gen Cert.KernelIdeal.GateUp Cert.KernelIdeal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region's entry contents, read at the TensorCore's references. -/
abbrev entry0 (c : Dev nD) (b : Ref sig .tc) : Buf (Elt F) ((c : Thread nD τ).loc b) := Gen.V2 m c (Proc.devRef .tc b)

/-- What the first region leaves in its output array. -/
def left6 (c : Dev nD) : Buf (Elt F) ((c : Thread nD τ).loc main_v6) := (dat0 (entry0 m) c).arrAt 3 cfg0.N

/-- The buffers after the first region. -/
abbrev val1 (c : Dev nD) : Valuation τ sig (Elt F) := Function.update (Gen.V2 m c) main_v6 (left6 m c)

/-- The second region's entry contents, read at the TensorCore's references. -/
abbrev entry1 (c : Dev nD) (b : Ref sig .tc) : Buf (Elt F) ((c : Thread nD τ).loc b) := val1 m c (Proc.devRef .tc b)

/-- What the second region leaves in its output array: the program's result. -/
def left7 (c : Dev nD) : Buf (Elt F) ((c : Thread nD τ).loc main_v7) := (dat1 (entry1 m) c).arrAt 3 cfg1.N

/-- The buffers after the second region. -/
abbrev val2 (c : Dev nD) : Valuation τ sig (Elt F) := Function.update (val1 m c) main_v7 (left7 m c)

/-- What the regions leave in the buffers they may change. -/
def outs : Gen.Outs (F := F) := fun _ r c =>
  if h : r = main_v6 then h ▸ left6 m c else if h' : r = main_v7 then h' ▸ left7 m c else m ((c : Thread nD τ).loc r)

theorem outs_v6 (J : ℕ) (c : Dev nD) : outs m J main_v6 c = left6 m c := by
  unfold outs; rw [dif_pos rfl]
theorem outs_v7 (J : ℕ) (c : Dev nD) : outs m J main_v7 c = left7 m c := by
  unfold outs; rw [dif_neg (by decide), dif_pos rfl]

theorem V3_eq (c : Dev nD) : Gen.V3 m (outs m) c = val1 m c := by
  show Function.update (Gen.V2 m c) main_v6 (outs m 3 main_v6 c) = _
  rw [outs_v6]
theorem V4_eq (c : Dev nD) : Gen.V4 m (outs m) c = val2 m c := by
  show Function.update (Gen.V3 m (outs m) c) main_v7 (outs m 4 main_v7 c) = _
  rw [outs_v7, V3_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The first region -/

/-- At the first region's exit each of its arrays holds what the pipeline leaves, -/
theorem hF0 (c : Dev nD) (w : Fin cfg0.W) : (dat0 (entry0 m) c).arrAt w cfg0.N = entry1 m c (Pipeline.arrRef spec0 w) := by
  match w with
  | ⟨0, _⟩ =>
    exact ((dat0 (entry0 m) c).arrAt_in 0 rfl _).trans ((A_eq0 (entry0 m) c 0).trans
      (Function.update_of_ne (StableHlo.devRef_ne_of_ne (by decide) : (Proc.devRef .tc main_v1 : DevRef τ sig) ≠ Proc.devRef .tc main_v6) _ _).symm)
  | ⟨1, _⟩ =>
    exact ((dat0 (entry0 m) c).arrAt_in 1 rfl _).trans ((A_eq0 (entry0 m) c 1).trans
      (Function.update_of_ne (StableHlo.devRef_ne_of_ne (by decide) : (Proc.devRef .tc main_v2 : DevRef τ sig) ≠ Proc.devRef .tc main_v6) _ _).symm)
  | ⟨2, _⟩ =>
    exact ((dat0 (entry0 m) c).arrAt_in 2 rfl _).trans ((A_eq0 (entry0 m) c 2).trans
      (Function.update_of_ne (StableHlo.devRef_ne_of_ne (by decide) : (Proc.devRef .tc main_v3 : DevRef τ sig) ≠ Proc.devRef .tc main_v6) _ _).symm)
  | ⟨3, _⟩ => exact (Function.update_self (Proc.devRef .tc main_v6 : DevRef τ sig) (left6 m c) (Gen.V2 m c)).symm
/-- and every other buffer what it held at entry. -/
theorem hrest0 (c : Dev nD) : ∀ b, b ∉ Finset.univ.image (Pipeline.arrRef spec0) → entry1 m c b = entry0 m c b :=
  fun b hb => Function.update_of_ne (StableHlo.devRef_ne_of_ne fun e => hb (Finset.mem_image.mpr ⟨3, Finset.mem_univ _, e.symm⟩)) _ _

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V2 m c) ∗ E 0 c)
  post c := iprop(StableHlo.held (c : Thread nD τ) (Pipeline.ucRefs τ sig) (Gen.V3 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [Pipeline.unscopedBufs_held] at hjoin
    rw [V3_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- The buffers after the second region, read at the TensorCore's references. -/
abbrev exit1 (c : Dev nD) (b : Ref sig .tc) : Buf (Elt F) ((c : Thread nD τ).loc b) := val2 m c (Proc.devRef .tc b)

/-- At the second region's exit each of its arrays holds what the pipeline leaves, -/
theorem hF1 (c : Dev nD) (w : Fin cfg1.W) : (dat1 (entry1 m) c).arrAt w cfg1.N = exit1 m c (Pipeline.arrRef spec1 w) := by
  match w with
  | ⟨0, _⟩ =>
    exact ((dat1 (entry1 m) c).arrAt_in 0 rfl _).trans ((A_eq1 (entry1 m) c 0).trans
      (Function.update_of_ne (StableHlo.devRef_ne_of_ne (by decide) : (Proc.devRef .tc main_v6 : DevRef τ sig) ≠ Proc.devRef .tc main_v7) _ _).symm)
  | ⟨1, _⟩ =>
    exact ((dat1 (entry1 m) c).arrAt_in 1 rfl _).trans ((A_eq1 (entry1 m) c 1).trans
      (Function.update_of_ne (StableHlo.devRef_ne_of_ne (by decide) : (Proc.devRef .tc main_v4 : DevRef τ sig) ≠ Proc.devRef .tc main_v7) _ _).symm)
  | ⟨2, _⟩ =>
    exact ((dat1 (entry1 m) c).arrAt_in 2 rfl _).trans ((A_eq1 (entry1 m) c 2).trans
      (Function.update_of_ne (StableHlo.devRef_ne_of_ne (by decide) : (Proc.devRef .tc main_v5 : DevRef τ sig) ≠ Proc.devRef .tc main_v7) _ _).symm)
  | ⟨3, _⟩ => exact (Function.update_self (Proc.devRef .tc main_v7 : DevRef τ sig) (left7 m c) (val1 m c)).symm
/-- and every other buffer what it held at entry. -/
theorem hrest1 (c : Dev nD) : ∀ b, b ∉ Finset.univ.image (Pipeline.arrRef spec1) → exit1 m c b = entry1 m c b :=
  fun b hb => Function.update_of_ne (StableHlo.devRef_ne_of_ne fun e => hb (Finset.mem_image.mpr ⟨3, Finset.mem_univ _, e.symm⟩)) _ _

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (Gen.V3 m (outs m) c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    refine BIBase.Entails.trans (hout1 (entry1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    rw [V4_eq]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch element is the pipelines' ghost state and nothing else. -/
theorem launch_ghost :
    (ownU (initOf (Pipeline.cells cfgs cellOf_inj) (Pipeline.launchToks cfgs cellOf_inj)) : sProp 𝕄)
      ⊢ |={Set.univ}=> iprop(BI.own ((emb₁ : Emb (URounds (GSem nD τ sig) Unit) 𝕄) (initOf (Pipeline.cells cfgs cellOf_inj) (Pipeline.launchToks cfgs cellOf_inj)))
          ∗ bigSep Finset.univ fun _ : Dev nD => (BI.emp : sProp 𝕄)) := by
  iintro Hu
  imodintro
  isplitl [Hu]
  · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- What the launch leaves on every core beside the buffers makes the first rest state. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- Every weakly fair execution of the program terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb (URounds (GSem nD τ sig) Unit) 𝕄) () 𝒱₀ L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_ghost
    E (rest_init ρ) (fun c => by iintro ⟨-, H⟩; iexact H)
    (reg0 m) (fun _ => .rfl) (fun _ => .rfl) (reg1 m) (fun _ => .rfl) (fun _ => .rfl)

/-! ## The same run with the result named -/

-- the launch theorem's implicit arguments are found by unifying its conclusion with this one, which takes unfolding
-- plain definitions in a metavariable's type
set_option backward.isDefEq.respectTransparency.types false in
/-- Every weakly fair execution of the program terminates, nothing faulting, with the result's buffer at what the second
    region's write-backs leave and every argument array as launched: the same launch over the same segments, the last
    boundary's contents read at one buffer more. -/
theorem run_named (ρ : Dev nD → PrngReg) : θ_run defs (onTc (τ := τ) (main (F := F))) ⟨m, fun _ => 0, ρ⟩ (fun r => ∀ c : Dev nD,
      r.2.mem ((c.tc : Thread nD τ).loc main_v7) = left7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj (emb₁ : Emb (URounds (GSem nD τ sig) Unit) 𝕄) defs₀ 𝒱₀ L lv m ρ main
    (Gen.segs m 𝒱₀ L lv E () (pdats m) (reg0 m) (reg1 m))
    (fun c Q => by
      rewrite [main_chain c, Pipeline.Seg.run_eq_chain,
        show (Gen.segs m 𝒱₀ L lv E () (pdats m) (reg0 m) (reg1 m) c).map Pipeline.Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_ghost
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := ?_) (QY := fun c s => s.mem ((c.tc : Thread nD τ).loc main_v7) = left7 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E (F := F) 0)]
    isplitl [Hh]; · iexact Hh
    iexact HE
  · -- the end: the result's buffer and each argument's read off the last boundary's contents
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans
          ((congrFun (V4_eq m c) _).trans (Function.update_self (Proc.devRef .tc main_v7 : DevRef τ sig) (left7 m c) (val1 m c))),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c),
        (h (Proc.devRef .tc main_arg4) (Finset.mem_filter.mpr ⟨StableHlo.devRef_mem_tcRefs main_arg4, by decide⟩)).trans (Gen.V4_main_arg4 m (outs m) c),
        (h (Proc.devRef .tc main_arg5) (Finset.mem_filter.mpr ⟨StableHlo.devRef_mem_tcRefs main_arg5, by decide⟩)).trans (Gen.V4_main_arg5 m (outs m) c)⟩
    · iexact HSI

end Cert.KernelIdeal.Launch

end
-- ==== Proof.Spec.lean ====
/-
  The function both programs compute, over the extended reals, index by index.

  Selected rows `xs` (4096 tokens × 4096 features), gate and up weights (14336 × 4096 each), down weights
  (4096 × 14336) and one routing weight per token. For token `n` and inner feature `i` the gate and up
  projections are the row-by-row inner products `∑ k, xs[n,k] · W[i,k]`; the activation is
  `(g · σ(g)) · u` with `σ(g) = 1 / (1 + e^(−g))`, read on the extended reals by the corner conventions of
  division and the exponential (`σ(⊥) = 0`, `σ(⊤) = 1`); the result at token `n` and output feature `j` is
  `(∑ i, act[n,i] · Wd[j,i]) · w[n]`. The products are written in exactly this order and grouping: on the extended
  reals a product does not distribute over a sum at the infinities, so the routing weight multiplies the finished sum.
-/
import Idealize.ShloMosaic.PureOps.Ideal
import Idealize.ShloMosaic.Lib.ValueIdx

noncomputable section

open scoped BigOperators

namespace Cert.SwiGLU

open Idealize.ShloMosaic Idealize.ShloMosaic.ValueIdx

/-- Selected tokens by input features; also the result's shape (tokens by output features). -/
abbrev STok : Shape := ⟨2, ![4096, 4096]⟩
/-- Gate and up weights: inner features by input features. -/
abbrev SProj : Shape := ⟨2, ![14336, 4096]⟩
/-- Tokens by inner features (the activation), and the down weights (output features by inner features). -/
abbrev SInner : Shape := ⟨2, ![4096, 14336]⟩
/-- One routing weight per token. -/
abbrev SRoute : Shape := ⟨1, ![4096]⟩

/-- One projection at token `n`, inner feature `i`: the inner product of row `n` of `xs` with row `i` of `w`. -/
def proj (xs : STok.Idx → EReal) (w : SProj.Idx → EReal) (n : Fin 4096) (i : Fin 14336) : EReal :=
  ∑ k : Fin 4096, xs (ix2 n k) * w (ix2 i k)

/-- The gated activation at token `n`, inner feature `i`: `(g · σ(g)) · u`. -/
def act (xs : STok.Idx → EReal) (wg wu : SProj.Idx → EReal) (n : Fin 4096) (i : Fin 14336) : EReal :=
  (proj xs wg n i * Ideal.logistic (proj xs wg n i)) * proj xs wu n i

/-- The down projection of an activation array `h`, scaled by the token's routing weight, at token `n` and output
    feature `j`: `(∑ i, h[n,i] · wd[j,i]) · w[n]`. -/
def downAt (h : SInner.Idx → EReal) (wd : SInner.Idx → EReal) (w : SRoute.Idx → EReal) (n j : Fin 4096) : EReal :=
  (∑ i : Fin 14336, h (ix2 n i) * wd (ix2 j i)) * w (ix1 n)

/-- The activation as an array over tokens by inner features. -/
def actArr (xs : STok.Idx → EReal) (wg wu : SProj.Idx → EReal) : SInner.Idx → EReal :=
  fun y => act xs wg wu (y 0 : Fin 4096) (y 1 : Fin 14336)

/-- The down projection of `h` as an array over tokens by output features. -/
def downArr (h : SInner.Idx → EReal) (wd : SInner.Idx → EReal) (w : SRoute.Idx → EReal) : STok.Idx → EReal :=
  fun y => downAt h wd w (y 0 : Fin 4096) (y 1 : Fin 4096)

/-- The whole computation: the down projection of the gated activation. -/
def result (xs : STok.Idx → EReal) (wg wu : SProj.Idx → EReal) (wd : SInner.Idx → EReal) (w : SRoute.Idx → EReal) :
    STok.Idx → EReal :=
  downArr (actArr xs wg wu) wd w

theorem actArr_apply (xs : STok.Idx → EReal) (wg wu : SProj.Idx → EReal) (n : Fin 4096) (i : Fin 14336) :
    actArr xs wg wu (ix2 n i) = act xs wg wu n i := rfl

theorem downArr_apply (h wd : SInner.Idx → EReal) (w : SRoute.Idx → EReal) (n j : Fin 4096) :
    downArr h wd w (ix2 n j) = downAt h wd w n j := rfl

theorem result_apply (xs : STok.Idx → EReal) (wg wu : SProj.Idx → EReal) (wd : SInner.Idx → EReal)
    (w : SRoute.Idx → EReal) (n j : Fin 4096) :
    result xs wg wu wd w (ix2 n j) = downAt (actArr xs wg wu) wd w n j := rfl

end Cert.SwiGLU

end
-- ==== Proof.GateUpValue.lean ====
/-
  The gate / up region's output array as ONE function of the three arrays the region reads, at the ideal values (a float
  is an extended real, every operation exact, a change of float format the identity).

  The grid has 28 × 8 points; point `t` has inner coordinate `t % 8` and outer coordinate `t / 8`. At `t` the body holds rows
  `512 (t % 8) … + 511` of the token array and rows `512 (t / 8) … + 511` of the gate and of the up weights, every row whole
  (all 4096 input features), and stores into block `(t % 8, t / 8)` of the output, at row `p` and column `q`, the value
  `(g · σ(g)) · u` with `g = ∑ k, x[p,k] · wg[q,k]` and `u = ∑ k, x[p,k] · wu[q,k]`: each block product contracts the
  operands' second axes, so its sum runs over a whole row of each, and the narrowing to the output's format changes nothing.
  Hence what point `t` writes back is block `t` of the gated activation `Cert.SwiGLU.actArr` of the three arrays; the 224
  blocks tile the 4096 × 14336 output (index `(n, i)` lies in the block of the point with inner coordinate `n / 512` and
  outer coordinate `i / 512`); so after the last point the output array IS that activation.
-/
import proofs.«127610_j17051020165440_1_alg».proof.Proof.KIGateUp
import proofs.«127610_j17051020165440_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GateUpValue

open Cert.KernelIdeal Cert.KernelIdeal.Gen Cert.KernelIdeal.GateUp
open Idealize.ShloMosaic Idealize.ShloMosaic.TcCoe Idealize.ShloMosaic.ValueIdx Idealize.SL.Sem
open Idealize.ShloMosaic.Pipeline (Dat)

/-! ## The two block products at an output index -/

/-- The left operand's row coordinate is the output's row coordinate. -/
theorem lhs_gateUp_0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

/-- The left operand's column coordinate is the contraction position. -/
theorem lhs_gateUp_1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q

/-- The right operand's row coordinate is the output's column coordinate. -/
theorem rhs_gateUp_0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

/-- The right operand's column coordinate is the contraction position. -/
theorem rhs_gateUp_1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- A block product into the zero accumulator, at row `p` and column `q`: the inner product of row `p` of the left block
    with row `q` of the right block, over the 4096 input features. -/
theorem blockProduct_apply (x w : FVec Ideal S512x4096 .bf16) (p q : Fin 512) :
    (matmul dot_S512x4096_S512x4096_S512x512_1_1_0_0_n_n none x w (constant (F := Ideal) S512x512 .f32 0x00000000#32) : FVec Ideal S512x512 .f32) (ix2 p q)
      = ∑ k : Fin 4096, x (ix2 p k) * w (ix2 q k) := by
  simp only [matmul]
  rw [Ideal.matmul_constant_zero_apply,
    ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q)
      ((contrEquiv1 dot_S512x4096_S512x4096_S512x512_1_1_0_0_n_n 4096 rfl rfl).symm k) = ix2 p k := funext fun a => Fin.ext (by
    match a with
    | ⟨0, _⟩ => exact lhs_gateUp_0 _ _
    | ⟨1, _⟩ => exact (lhs_gateUp_1 _ _).trans hk)
  have er : dot_S512x4096_S512x4096_S512x512_1_1_0_0_n_n.rhsIdx (ix2 p q)
      ((contrEquiv1 dot_S512x4096_S512x4096_S512x512_1_1_0_0_n_n 4096 rfl rfl).symm k) = ix2 q k := funext fun a => Fin.ext (by
    match a with
    | ⟨0, _⟩ => exact rhs_gateUp_0 _ _
    | ⟨1, _⟩ => exact (rhs_gateUp_1 _ _).trans hk)
  rw [el, er]

/-! ## The stored value at an output index -/

/-- The body's one stored value at row `p`, column `q` of its block: with `g` and `u` the inner products of token row `p`
    with gate row `q` and with up row `q`, it is `(g · σ(g)) · u`; the narrowing to the output's format is the identity on
    extended reals. -/
theorem stored_apply (x wg wu : Vec Ideal S512x4096 .bf16) (p q : Fin 512) :
    k0_pay1 x wg wu (ix2 p q)
      = ((∑ k : Fin 4096, x (ix2 p k) * wg (ix2 q k)) * Ideal.logistic (∑ k : Fin 4096, x (ix2 p k) * wg (ix2 q k)))
          * (∑ k : Fin 4096, x (ix2 p k) * wu (ix2 q k)) := by
  unfold k0_pay1
  simp only [shapeCast_self]
  rw [truncf_apply, mulf_apply, mulf_apply]
  show _ * FloatOps.logistic _ * _ = _
  rw [Ideal.logistic_def, blockProduct_apply, blockProduct_apply]

/-! ## From the blocks to the array -/

theorem offsets_zero : (![0, 0] : Fin 2 → Nat) = fun _ => 0 := funext fun a => by fin_cases a <;> rfl

/-- The printed index maps in closed form, decided over the grid. Point `t` has inner coordinate `t % 8` (the token block)
    and outer coordinate `t / 8` (the block of weight rows): the token window sits at block row `t % 8`, both weight windows
    at block row `t / 8`, all three at block column 0, and the output window at block `(t % 8, t / 8)`. -/
theorem index_closed : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = t.val / 8 :=
  (by decide +kernel : ∀ t : Fin grid0.N, _)

section Blocks

variable (V : (c : Dev nD) → (b : Ref sig .tc) → Buf (Elt Ideal) ((c : Thread nD τ).loc b))

/-- The token block at point `t` is rows `512 (t % 8) … + 511` of the token array, all 4096 features. -/
theorem tokenBlock_apply (c : Dev nD) (t : Fin cfg0.N) (x : S512x4096.Idx) (z : S4096x4096.Idx)
    (h0 : (z 0).val = 512 * (t.val % 8) + (x 0).val) (h1 : (z 1).val = (x 1).val) :
    (iblk0 V c 0 t : Vec Ideal S512x4096 .bf16) x = (V c main_v1 : S4096x4096.Idx → EReal) z := by
  obtain ⟨e0, e1, -⟩ := index_closed t
  unfold iblk0
  rw [View.read_apply]
  show V c main_v1 _ = V c main_v1 _
  congr 1
  funext a
  apply Fin.ext
  match a with
  | ⟨0, _⟩ => show win0_0.index t (0 : Fin 2) * 512 + 1 * (x 0).val = (z 0).val; rw [e0, h0]; omega
  | ⟨1, _⟩ => show win0_0.index t (1 : Fin 2) * 4096 + 1 * (x 1).val = (z 1).val; rw [e1, h1]; omega

/-- The gate weights' block at point `t` is rows `512 (t / 8) … + 511` of the gate weights, all 4096 features. -/
theorem gateBlock_apply (c : Dev nD) (t : Fin cfg0.N) (x : S512x4096.Idx) (z : S14336x4096.Idx)
    (h0 : (z 0).val = 512 * (t.val / 8) + (x 0).val) (h1 : (z 1).val = (x 1).val) :
    (iblk0 V c 1 t : Vec Ideal S512x4096 .bf16) x = (V c main_v2 : S14336x4096.Idx → EReal) z := by
  obtain ⟨-, -, e0, e1, -⟩ := index_closed t
  unfold iblk0
  rw [View.read_apply]
  show V c main_v2 _ = V c main_v2 _
  congr 1
  funext a
  apply Fin.ext
  match a with
  | ⟨0, _⟩ => show win0_1.index t (0 : Fin 2) * 512 + 1 * (x 0).val = (z 0).val; rw [e0, h0]; omega
  | ⟨1, _⟩ => show win0_1.index t (1 : Fin 2) * 4096 + 1 * (x 1).val = (z 1).val; rw [e1, h1]; omega

/-- The up weights' block likewise. -/
theorem upBlock_apply (c : Dev nD) (t : Fin cfg0.N) (x : S512x4096.Idx) (z : S14336x4096.Idx)
    (h0 : (z 0).val = 512 * (t.val / 8) + (x 0).val) (h1 : (z 1).val = (x 1).val) :
    (iblk0 V c 2 t : Vec Ideal S512x4096 .bf16) x = (V c main_v3 : S14336x4096.Idx → EReal) z := by
  obtain ⟨-, -, -, -, e0, e1, -⟩ := index_closed t
  unfold iblk0
  rw [View.read_apply]
  show V c main_v3 _ = V c main_v3 _
  congr 1
  funext a
  apply Fin.ext
  match a with
  | ⟨0, _⟩ => show win0_2.index t (0 : Fin 2) * 512 + 1 * (x 0).val = (z 0).val; rw [e0, h0]; omega
  | ⟨1, _⟩ => show win0_2.index t (1 : Fin 2) * 4096 + 1 * (x 1).val = (z 1).val; rw [e1, h1]; omega

/-- The stored value at row `p`, column `q` of a block whose three input blocks hold row `p` / row `q` of rows `n` / `i` of three
    arrays is the gated activation of those arrays at token `n`, inner feature `i`: the inner products run over whole rows. -/
theorem stored_eq_act (x wg wu : Vec Ideal S512x4096 .bf16) (xs : S4096x4096.Idx → EReal) (Wg Wu : S14336x4096.Idx → EReal)
    (p q : Fin 512) (n : Fin 4096) (i : Fin 14336)
    (hx : ∀ k : Fin 4096, x (ix2 p k) = xs (ix2 n k)) (hg : ∀ k : Fin 4096, wg (ix2 q k) = Wg (ix2 i k))
    (hu : ∀ k : Fin 4096, wu (ix2 q k) = Wu (ix2 i k)) :
    k0_pay1 x wg wu (ix2 p q) = Cert.SwiGLU.act xs Wg Wu n i := by
  rw [stored_apply]
  unfold Cert.SwiGLU.act Cert.SwiGLU.proj
  simp only [hx, hg, hu]

/-- What point `t` stores at `y` of its block is the gated activation of the three arrays at the array index `z` that
    `y` is in the output's block `(t % 8, t / 8)`: the blocks hold whole rows of the arrays. -/
theorem stored_block_apply (c : Dev nD) (t : Fin cfg0.N) (y : S512x512.Idx) (z : S4096x14336.Idx)
    (h0 : (z 0).val = 512 * (t.val % 8) + (y 0).val) (h1 : (z 1).val = 512 * (t.val / 8) + (y 1).val) :
    k0_pay1 (iblk0 V c 0 t) (iblk0 V c 1 t) (iblk0 V c 2 t) y
      = Cert.SwiGLU.actArr (V c main_v1) (V c main_v2) (V c main_v3) z := by
  obtain ⟨p, q, rfl⟩ : ∃ (p : Fin 512) (q : Fin 512), y = ix2 p q := ⟨y 0, y 1, eq_ix2 y⟩
  obtain ⟨n, i, rfl⟩ : ∃ (n : Fin 4096) (i : Fin 14336), z = ix2 n i := ⟨z 0, z 1, eq_ix2 z⟩
  have hn : n.val = 512 * (t.val % 8) + p.val := h0
  have hi : i.val = 512 * (t.val / 8) + q.val := h1
  show _ = Cert.SwiGLU.act (V c main_v1) (V c main_v2) (V c main_v3) n i
  exact stored_eq_act _ _ _ _ _ _ p q n i
    (fun k => tokenBlock_apply V c t (ix2 p k) (ix2 n k) hn rfl)
    (fun k => gateBlock_apply V c t (ix2 q k) (ix2 i k) hi rfl)
    (fun k => upBlock_apply V c t (ix2 q k) (ix2 i k) hi rfl)

/-- What point `t` writes back is block `t` of the gated activation of the three arrays as the region finds them. -/
theorem flushed_eq (c : Dev nD) (t : Fin cfg0.N) :
    (dat0 (F := Ideal) V c).flushed 3 t
      = ((cfg0.win 3).blk t).view.read (Elt Ideal) (Cert.SwiGLU.actArr (V c main_v1) (V c main_v2) (V c main_v3)) := by
  show (cfg0.win 3).cut (grid0.coords t) ((dat0 V c).after 3 t) = _
  rw [after0_3]
  unfold out0_3
  rw [View.canon_unit_zero offsets_zero]
  simp only [View.ld_unit_zero (S := S512x4096) offsets_zero]
  obtain ⟨-, -, -, -, -, -, e0, e1⟩ := index_closed t
  funext j
  show k0_pay1 (iblk0 V c 0 t) (iblk0 V c 1 t) (iblk0 V c 2 t) j
    = Cert.SwiGLU.actArr (V c main_v1) (V c main_v2) (V c main_v3) (((cfg0.win 3).blk t).view.emb j)
  refine stored_block_apply V c t _ _ ?_ ?_
  · show win0_3.index t (0 : Fin 2) * 512 + 1 * (j 0).val = 512 * (t.val % 8) + (j 0).val
    rw [e0]; omega
  · show win0_3.index t (1 : Fin 2) * 512 + 1 * (j 1).val = 512 * (t.val / 8) + (j 1).val
    rw [e1]; omega

/-- An index of the output array is in point `t`'s block iff each coordinate is in the block's range on its axis. -/
theorem mem_block (t : Fin cfg0.N) (z : S4096x14336.Idx) :
    z ∈ ((cfg0.win 3).blk t).view.set
      ↔ ∀ a : Fin 2, win0_3.index t a * S512x512.size a ≤ (z a).val ∧ (z a).val < win0_3.index t a * S512x512.size a + S512x512.size a := by
  show z ∈ ((View.whole main_v6).slice (win0_3.rect t)).set ↔ _
  rw [View.set_slice_whole, Rect.mem_set_unit]
  exact Iff.rfl

/-- Every index of the output array is in some point's block: token `n`, inner feature `i` is in the block of the point
    with inner coordinate `n / 512` and outer coordinate `i / 512`. -/
theorem covered (z : S4096x14336.Idx) :
    ∃ t : Fin cfg0.N, (cfg0.win 3).flush t = true ∧ z ∈ ((cfg0.win 3).blk t).view.set := by
  have hz0 : (z 0).val < 4096 := idx2_lt0 z
  have hz1 : (z 1).val < 14336 := idx2_lt1 z
  have hN : cfg0.N = 224 := N_0
  obtain ⟨t, ht⟩ : ∃ t : Fin cfg0.N, t.val = 8 * ((z 1).val / 512) + (z 0).val / 512 :=
    ⟨⟨8 * ((z 1).val / 512) + (z 0).val / 512, by rw [hN]; omega⟩, rfl⟩
  obtain ⟨-, -, -, -, -, -, e0, e1⟩ := index_closed t
  refine ⟨t, flush0_3 t, ?_⟩
  rw [mem_block]
  intro a
  match a with
  | ⟨0, _⟩ =>
    show win0_3.index t (0 : Fin 2) * 512 ≤ (z 0).val ∧ (z 0).val < win0_3.index t (0 : Fin 2) * 512 + 512
    rw [e0]; omega
  | ⟨1, _⟩ =>
    show win0_3.index t (1 : Fin 2) * 512 ≤ (z 1).val ∧ (z 1).val < win0_3.index t (1 : Fin 2) * 512 + 512
    rw [e1]; omega

end Blocks

/-- After all 224 points the output array holds the gated activation of the token array against the gate and up weights:
    at token `n` and inner feature `i`, `(g · σ(g)) · u` with `g = ∑ k, xs[n,k] · Wg[i,k]` and `u = ∑ k, xs[n,k] · Wu[i,k]`. -/
theorem gateUp_array (V : (c : Dev nD) → (b : Ref sig .tc) → Buf (Elt Ideal) ((c : Thread nD τ).loc b)) (c : Dev nD) :
    (dat0 (F := Ideal) V c).arrAt 3 cfg0.N = Cert.SwiGLU.actArr (V c main_v1) (V c main_v2) (V c main_v3) :=
  (dat0 (F := Ideal) V c).arrAt_eq_of_cover 3 (Cert.SwiGLU.actArr (V c main_v1) (V c main_v2) (V c main_v3))
    (fun t _ => flushed_eq V c t) covered

end Cert.KernelIdeal.GateUpValue

end
-- ==== Proof.DownValue.lean ====
/-
  The down-projection region's output array as one function of the arrays the region finds, over the extended reals.

  The region's grid has 8 × 2 × 28 points; point `t` works on token block `t / 56` (512 tokens), output-feature block
  `(t / 28) % 2` (2048 output features) and inner block `t % 28` (512 inner features), the inner block moving fastest. Along
  the 28 consecutive points of one token block and one output-feature block the accumulator at row `p`, column `q` goes
  `0 + P 0`, `(0 + P 0) + P 1`, …, where `P k = ∑ r < 512, act[512·i0 + p, 512·k + r] · wd[2048·i1 + q, 512·k + r]`. A sum over
  a range of naturals splits at any point (`∑ i < a + b = ∑ i < a + ∑ i < b, f (a + i)`), so after inner block `k` the
  accumulator holds `∑ i < 512·(k + 1), act[n, i] · wd[j, i]`: only `0 + x = x` and the splitting of a range are used, no
  distributivity and no finiteness. After inner block 27 that is the sum over all 14336 inner features; the body stores
  it times the token's routing weight, and that point's block is written back. Those 16 blocks tile the 4096 × 4096 output,
  so the output ends holding `(∑ i, act[n, i] · wd[j, i]) · w[n]` at every token `n` and output feature `j`.
-/
import proofs.«127610_j17051020165440_1_alg».proof.Proof.KIDown
import proofs.«127610_j17051020165440_1_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open scoped BigOperators

namespace Cert.KernelIdeal.DownValue

open Cert.KernelIdeal Cert.KernelIdeal.Gen Cert.KernelIdeal.Down
open Idealize.ShloMosaic Idealize.ShloMosaic.TcCoe Idealize.ShloMosaic.ValueIdx Idealize.SL.Sem
open Idealize.ShloMosaic.Pipeline (Dat)

/-! ## The body's three stored values at an index -/

/-- The left operand's row coordinate is the output's row coordinate. -/
theorem lhs_down_0 (i : S512x2048.Idx) (k : dot_S512x512_S2048x512_S512x2048_1_1_0_0_n_n.contr.Idx) :
    (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

/-- The left operand's column coordinate is the contraction position. -/
theorem lhs_down_1 (i : S512x2048.Idx) (k : dot_S512x512_S2048x512_S512x2048_1_1_0_0_n_n.contr.Idx) :
    (dot_S512x512_S2048x512_S512x2048_1_1_0_0_n_n.lhsIdx i k 1).val = (k ⟨0, by decide⟩).val :=
  dot_S512x512_S2048x512_S512x2048_1_1_0_0_n_n.lhsIdx_val_of_single rfl i k

/-- The right operand's row coordinate is the output's column coordinate. -/
theorem rhs_down_0 (i : S512x2048.Idx) (k : dot_S512x512_S2048x512_S512x2048_1_1_0_0_n_n.contr.Idx) :
    (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The right operand's column coordinate is the contraction position. -/
theorem rhs_down_1 (i : S512x2048.Idx) (k : dot_S512x512_S2048x512_S512x2048_1_1_0_0_n_n.contr.Idx) :
    (dot_S512x512_S2048x512_S512x2048_1_1_0_0_n_n.rhsIdx i k 1).val = (k ⟨0, by decide⟩).val :=
  dot_S512x512_S2048x512_S512x2048_1_1_0_0_n_n.rhsIdx_val_of_single rfl i k

/-- The block product into the zero accumulator, at row `p` and column `q`: the inner product of row `p` of the
    activation block with row `q` of the weight block, over the block's 512 inner features. -/
theorem blockProduct_apply (h : FVec Ideal S512x512 .bf16) (wd : FVec Ideal S2048x512 .bf16) (p : Fin 512) (q : Fin 2048) :
    (matmul dot_S512x512_S2048x512_S512x2048_1_1_0_0_n_n none h wd (constant (F := Ideal) S512x2048 .f32 0x00000000#32) : FVec Ideal S512x2048 .f32) (ix2 p q)
      = ∑ r : Fin 512, h (ix2 p r) * wd (ix2 q r) := by
  simp only [matmul]
  rw [Ideal.matmul_constant_zero_apply,
    ← Equiv.sum_comp (contrEquiv1 dot_S512x512_S2048x512_S512x2048_1_1_0_0_n_n 512 rfl rfl).symm]
  refine Finset.sum_congr rfl fun r _ => ?_
  have hr := contrEquiv1_symm_val dot_S512x512_S2048x512_S512x2048_1_1_0_0_n_n 512 rfl rfl r
  have el : dot_S512x512_S2048x512_S512x2048_1_1_0_0_n_n.lhsIdx (ix2 p q)
      ((contrEquiv1 dot_S512x512_S2048x512_S512x2048_1_1_0_0_n_n 512 rfl rfl).symm r) = ix2 p r := funext fun a => Fin.ext (by
    match a with
    | ⟨0, _⟩ => exact lhs_down_0 _ _
    | ⟨1, _⟩ => exact (lhs_down_1 _ _).trans hr)
  have er : dot_S512x512_S2048x512_S512x2048_1_1_0_0_n_n.rhsIdx (ix2 p q)
      ((contrEquiv1 dot_S512x512_S2048x512_S512x2048_1_1_0_0_n_n 512 rfl rfl).symm r) = ix2 q r := funext fun a => Fin.ext (by
    match a with
    | ⟨0, _⟩ => exact rhs_down_0 _ _
    | ⟨1, _⟩ => exact (rhs_down_1 _ _).trans hr)
  rw [el, er]

/-- The reset value is zero everywhere. -/
theorem reset_apply (j : S512x2048.Idx) : (k1_pay1 (F := Ideal)) j = 0 := by
  unfold k1_pay1
  simp only [shapeCast_self]
  show Ideal.ofBits .f32 0x00000000#32 = 0
  exact Ideal.ofBits_zero_f32

/-- The accumulating step at row `p`, column `q`: what the accumulator held there plus the block product. -/
theorem step_apply (h : Vec Ideal S512x512 .bf16) (wd : Vec Ideal S2048x512 .bf16) (s : Vec Ideal S512x2048 .f32) (p : Fin 512) (q : Fin 2048) :
    k1_pay2 h wd s (ix2 p q) = s (ix2 p q) + ∑ r : Fin 512, h (ix2 p r) * wd (ix2 q r) := by
  unfold k1_pay2
  simp only [shapeCast_self]
  rw [addf_apply, blockProduct_apply]

/-- The routing column broadcast along the row, at row `p`, column `q`: the column's entry at row `p`. -/
theorem routeBroadcast_apply (w : Vec Ideal S512x1 .f32) (p : Fin 512) (q : Fin 2048) :
    broadcastTo S512x2048 w broadcasts_S512x1_S512x2048 (ix2 p q) = w (ix2 p (0 : Fin 1)) := by
  refine broadcastTo_apply w broadcasts_S512x1_S512x2048 (ix2 p q) (ix2 p (0 : Fin 1)) fun a => ?_
  match a with
  | ⟨0, _⟩ => rfl
  | ⟨1, _⟩ => rfl

/-- The stored output at row `p`, column `q`: the accumulator there times the routing weight of row `p`. -/
theorem scaled_apply (a : Vec Ideal S512x2048 .f32) (w : Vec Ideal S512x1 .f32) (p : Fin 512) (q : Fin 2048) :
    k1_pay3 a w (ix2 p q) = a (ix2 p q) * w (ix2 p (0 : Fin 1)) := by
  unfold k1_pay3
  simp only [shapeCast_self]
  rw [mulf_apply, routeBroadcast_apply]

/-! ## The index maps, over the grid -/

/-- Point `t` is token block `t / 56`, output-feature block `(t / 28) % 2`, inner block `t % 28`; each window's block
    index in terms of those. -/
theorem downBlockIndex : ∀ t : Fin cfg1.N,
    win1_0.index t (0 : Fin 2) = t.val / 56 ∧ win1_0.index t (1 : Fin 2) = t.val % 28
    ∧ win1_1.index t (0 : Fin 2) = t.val / 28 % 2 ∧ win1_1.index t (1 : Fin 2) = t.val % 28
    ∧ win1_2.index t (0 : Fin 2) = t.val / 56 ∧ win1_2.index t (1 : Fin 2) = 0
    ∧ win1_3.index t (0 : Fin 2) = t.val / 56 ∧ win1_3.index t (1 : Fin 2) = t.val / 28 % 2 :=
  (by decide +kernel : ∀ t : Fin grid1.N, _)

/-! ## The arrays as total functions of two naturals -/

/-- A rank-2 array read at a pair of naturals: the entry when both are in range, zero otherwise. Sums over ranges of
    naturals are then free of bound proofs; every use below is in range. -/
def at2 {n0 n1 : Nat} (A : (⟨2, ![n0, n1]⟩ : Shape).Idx → EReal) (a b : Nat) : EReal :=
  if h : a < n0 ∧ b < n1 then A (ix2 ⟨a, h.1⟩ ⟨b, h.2⟩) else 0

theorem at2_of_lt {n0 n1 : Nat} (A : (⟨2, ![n0, n1]⟩ : Shape).Idx → EReal) (a : Fin n0) (b : Fin n1) :
    at2 A a.val b.val = A (ix2 a b) := by
  unfold at2
  rw [dif_pos ⟨a.isLt, b.isLt⟩]

theorem at2_eq {n0 n1 : Nat} (A : (⟨2, ![n0, n1]⟩ : Shape).Idx → EReal) (i : (⟨2, ![n0, n1]⟩ : Shape).Idx) (a b : Nat)
    (ha : (i 0).val = a) (hb : (i 1).val = b) : A i = at2 A a b := by
  subst ha; subst hb
  unfold at2
  rw [dif_pos ⟨idx2_lt0 i, idx2_lt1 i⟩]
  exact congrArg A (eq_ix2 i)

variable (V : (c : Dev nD) → (b : Ref sig .tc) → Buf (Elt Ideal) ((c : Thread nD τ).loc b))

/-- The activation array, the down weights and the routing column as the region finds them. -/
abbrev actIn (c : Dev nD) : S4096x14336.Idx → EReal := V c main_v6
abbrev wdIn (c : Dev nD) : S4096x14336.Idx → EReal := V c main_v4
abbrev routeIn (c : Dev nD) : S4096x1.Idx → EReal := V c main_v5

/-! ## The input blocks read at a coordinate -/

/-- The activation block at point `t`, row `p`, column `r`: token `512 · (t / 56) + p`, inner feature `512 · (t % 28) + r`. -/
theorem actBlock_apply (c : Dev nD) (t : Fin cfg1.N) (p r : Fin 512) :
    (iblk1 V c 0 t : Vec Ideal S512x512 .bf16) (ix2 p r) = at2 (actIn V c) (512 * (t.val / 56) + p.val) (512 * (t.val % 28) + r.val) := by
  obtain ⟨e0, e1, -⟩ := downBlockIndex t
  unfold iblk1
  rw [View.read_apply]
  show V c main_v6 _ = _
  refine at2_eq (actIn V c) _ _ _ ?_ ?_
  · show win1_0.index t (0 : Fin 2) * 512 + 1 * p.val = _
    rw [e0]; omega
  · show win1_0.index t (1 : Fin 2) * 512 + 1 * r.val = _
    rw [e1]; omega

/-- The weight block at point `t`, row `q`, column `r`: output feature `2048 · ((t / 28) % 2) + q`, inner feature
    `512 · (t % 28) + r`. -/
theorem wdBlock_apply (c : Dev nD) (t : Fin cfg1.N) (q : Fin 2048) (r : Fin 512) :
    (iblk1 V c 1 t : Vec Ideal S2048x512 .bf16) (ix2 q r) = at2 (wdIn V c) (2048 * (t.val / 28 % 2) + q.val) (512 * (t.val % 28) + r.val) := by
  obtain ⟨-, -, e0, e1, -⟩ := downBlockIndex t
  unfold iblk1
  rw [View.read_apply]
  show V c main_v4 _ = _
  refine at2_eq (wdIn V c) _ _ _ ?_ ?_
  · show win1_1.index t (0 : Fin 2) * 2048 + 1 * q.val = _
    rw [e0]; omega
  · show win1_1.index t (1 : Fin 2) * 512 + 1 * r.val = _
    rw [e1]; omega

/-- The routing column's block at point `t`, row `p`: token `512 · (t / 56) + p`. -/
theorem routeBlock_apply (c : Dev nD) (t : Fin cfg1.N) (p : Fin 512) :
    (iblk1 V c 2 t : Vec Ideal S512x1 .f32) (ix2 p (0 : Fin 1)) = at2 (routeIn V c) (512 * (t.val / 56) + p.val) 0 := by
  obtain ⟨-, -, -, -, e0, e1, -⟩ := downBlockIndex t
  unfold iblk1
  rw [View.read_apply]
  show V c main_v5 _ = _
  refine at2_eq (routeIn V c) _ _ _ ?_ ?_
  · show win1_2.index t (0 : Fin 2) * 512 + 1 * p.val = _
    rw [e0]; omega
  · show win1_2.index t (1 : Fin 2) * 1 + 1 * (0 : Fin 1).val = _
    rw [e1]; rfl

/-! ## The accumulator along a run of 28 points -/

/-- One point's step at row `p`, column `q`. If the accumulator held there the inner product of token
    `512 · (t / 56) + p` with output feature `2048 · ((t / 28) % 2) + q` over the inner features below `512 · (t % 28)`, the
    step leaves the inner product over those below `512 · (t % 28 + 1)`: the block product is the sum over the next 512
    inner features, and a sum over a range splits at any point. -/
theorem point_sum (c : Dev nD) (t : Fin cfg1.N) (s : Vec Ideal S512x2048 .f32) (p : Fin 512) (q : Fin 2048)
    (hs : s (ix2 p q) = ∑ i ∈ Finset.range (512 * (t.val % 28)),
      at2 (actIn V c) (512 * (t.val / 56) + p.val) i * at2 (wdIn V c) (2048 * (t.val / 28 % 2) + q.val) i) :
    k1_pay2 (iblk1 V c 0 t) (iblk1 V c 1 t) s (ix2 p q)
      = ∑ i ∈ Finset.range (512 * (t.val % 28 + 1)),
          at2 (actIn V c) (512 * (t.val / 56) + p.val) i * at2 (wdIn V c) (2048 * (t.val / 28 % 2) + q.val) i := by
  refine (step_apply (iblk1 V c 0 t) (iblk1 V c 1 t) s p q).trans ?_
  rw [hs, Nat.mul_add, Nat.mul_one, Finset.sum_range_add]
  refine congrArg (_ + ·) ?_
  rw [← Fin.sum_univ_eq_sum_range (fun r => at2 (actIn V c) (512 * (t.val / 56) + p.val) (512 * (t.val % 28) + r)
    * at2 (wdIn V c) (2048 * (t.val / 28 % 2) + q.val) (512 * (t.val % 28) + r)) 512]
  exact Finset.sum_congr rfl fun r _ => congrArg₂ (· * ·) (actBlock_apply V c t p r) (wdBlock_apply V c t q r)

/-- THE ACCUMULATOR after point `n`, at row `p`, column `q`: the inner product of the point's token with the point's
    output feature over the inner features below `512 · (n % 28 + 1)` — by induction on the point: a first inner block
    starts from zero, any other continues the point before, which has the same token and output-feature blocks. -/
theorem acc_apply (c : Dev nD) (p : Fin 512) (q : Fin 2048) : ∀ (n : ℕ) (hn : n < cfg1.N),
    accAt1 V c n hn (ix2 p q) = ∑ i ∈ Finset.range (512 * (n % 28 + 1)),
      at2 (actIn V c) (512 * (n / 56) + p.val) i * at2 (wdIn V c) (2048 * (n / 28 % 2) + q.val) i
  | 0, hn =>
    (congrFun (accAt1_first V c ⟨0, hn⟩ rfl) (ix2 p q)).trans
      (point_sum V c ⟨0, hn⟩ (k1_pay1 (F := Ideal)) p q (by rw [reset_apply]; exact (Finset.sum_range_zero _).symm))
  | n + 1, hn => by
    by_cases h0 : (n + 1) % 28 = 0
    · refine (congrFun (accAt1_first V c ⟨n + 1, hn⟩ h0) (ix2 p q)).trans ?_
      refine point_sum V c ⟨n + 1, hn⟩ (k1_pay1 (F := Ideal)) p q ?_
      rw [reset_apply]
      show (0 : EReal) = ∑ i ∈ Finset.range (512 * ((n + 1) % 28)), _
      rw [h0]
      exact (Finset.sum_range_zero _).symm
    · refine (congrFun (accAt1_next V c ⟨n + 1, hn⟩ h0) (ix2 p q)).trans ?_
      refine point_sum V c ⟨n + 1, hn⟩ _ p q ?_
      show accAt1 V c n (Nat.lt_of_succ_lt hn) (ix2 p q)
        = ∑ i ∈ Finset.range (512 * ((n + 1) % 28)),
            at2 (actIn V c) (512 * ((n + 1) / 56) + p.val) i * at2 (wdIn V c) (2048 * ((n + 1) / 28 % 2) + q.val) i
      rw [acc_apply c p q n (Nat.lt_of_succ_lt hn), show (n + 1) % 28 = n % 28 + 1 by omega,
        show (n + 1) / 56 = n / 56 by omega, show (n + 1) / 28 % 2 = n / 28 % 2 by omega]

/-! ## The specification's array read at a pair of naturals -/

/-- The down projection of `A` by `B`, scaled by the column `R`, at an index whose coordinates are `n` and `j`: the
    inner product over all 14336 inner features times the column's entry at `n`. -/
theorem downArr_at (A B : S4096x14336.Idx → EReal) (R : S4096x1.Idx → EReal) (y : S4096x4096.Idx) (n j : ℕ)
    (hn : (y 0).val = n) (hj : (y 1).val = j) :
    Cert.SwiGLU.downArr A B (fun y => R (ix2 (y 0 : Fin 4096) (0 : Fin 1))) y
      = (∑ i ∈ Finset.range 14336, at2 A n i * at2 B j i) * at2 R n 0 := by
  subst hn; subst hj
  show (∑ i : Fin 14336, A (ix2 (y 0 : Fin 4096) i) * B (ix2 (y 1 : Fin 4096) i)) * R (ix2 (y 0 : Fin 4096) (0 : Fin 1)) = _
  rw [← Fin.sum_univ_eq_sum_range (fun i => at2 A (y 0).val i * at2 B (y 1).val i) 14336]
  refine congrArg₂ (· * ·) (Finset.sum_congr rfl fun i _ => ?_) ?_
  · exact congrArg₂ (· * ·) (at2_of_lt A (y 0 : Fin 4096) i).symm (at2_of_lt B (y 1 : Fin 4096) i).symm
  · exact (at2_of_lt R (y 0 : Fin 4096) (0 : Fin 1)).symm

/-! ## What a last inner block writes back -/

/-- The array the output ends holding: the specification's down projection of the activation array by the down weights,
    scaled by the routing column. -/
abbrev downTarget (c : Dev nD) : S4096x4096.Idx → EReal :=
  Cert.SwiGLU.downArr (V c main_v6) (V c main_v4) (fun y => V c main_v5 (ix2 (y 0 : Fin 4096) (0 : Fin 1)))

/-- WHAT A LAST INNER BLOCK WRITES BACK is its block of the target array: at row `p`, column `q` the accumulator holds the
    inner product over all 28 · 512 inner features, and the store multiplies it by the token's routing weight. -/
theorem down_flushed_eq (c : Dev nD) (t : Fin cfg1.N) (hf : (cfg1.win 3).flush t = true) :
    (dat1 V c).flushed 3 t = ((cfg1.win 3).blk t).view.read (Elt Ideal) (downTarget V c) := by
  have h27 : t.val % 28 = 27 := (flush1_3 t).mp hf
  obtain ⟨-, -, -, -, -, -, e0, e1⟩ := downBlockIndex t
  show (cfg1.win 3).cut (grid1.coords t) ((dat1 V c).after 3 t) = _
  rw [after1_3]
  unfold outAt1
  funext j
  obtain ⟨p, q, rfl⟩ : ∃ (p : Fin 512) (q : Fin 2048), j = ix2 p q := ⟨j 0, j 1, eq_ix2 j⟩
  show k1_pay3 (accAt1 V c t.val t.isLt) (iblk1 V c 2 t) (ix2 p q) = downTarget V c (((cfg1.win 3).blk t).view.emb (ix2 p q))
  refine (scaled_apply (accAt1 V c t.val t.isLt) (iblk1 V c 2 t) p q).trans ?_
  refine (congrArg₂ (· * ·) (acc_apply V c p q t.val t.isLt) (routeBlock_apply V c t p)).trans ?_
  rw [h27]
  refine (downArr_at (actIn V c) (wdIn V c) (routeIn V c) _ (512 * (t.val / 56) + p.val) (2048 * (t.val / 28 % 2) + q.val) ?_ ?_).symm
  · show win1_3.index t (0 : Fin 2) * 512 + 1 * p.val = _
    rw [e0]; omega
  · show win1_3.index t (1 : Fin 2) * 2048 + 1 * q.val = _
    rw [e1]; omega

/-! ## The last inner blocks' output blocks cover the array -/

/-- An index of the array is in point `t`'s block iff each coordinate is in the block's range on its axis. -/
theorem down_mem_blk (t : Fin cfg1.N) (i : S4096x4096.Idx) :
    i ∈ ((cfg1.win 3).blk t).view.set
      ↔ ∀ a : Fin 2, win1_3.index t a * S512x2048.size a ≤ (i a).val ∧ (i a).val < win1_3.index t a * S512x2048.size a + S512x2048.size a := by
  show i ∈ ((View.whole main_v7).slice (win1_3.rect t)).set ↔ _
  rw [View.set_slice_whole, Rect.mem_set_unit]
  exact Iff.rfl

/-- Row `n`, column `j` is written back by the last inner block of token block `n / 512` and output-feature block
    `j / 2048`. -/
theorem down_cover (i : S4096x4096.Idx) : ∃ t : Fin cfg1.N, (cfg1.win 3).flush t = true ∧ i ∈ ((cfg1.win 3).blk t).view.set := by
  have h0 : (i 0).val < 4096 := idx2_lt0 i
  have h1 : (i 1).val < 4096 := idx2_lt1 i
  have hN : cfg1.N = 448 := N_1
  obtain ⟨t, ht⟩ : ∃ t : Fin cfg1.N, t.val = ((i 0).val / 512 * 2 + (i 1).val / 2048) * 28 + 27 :=
    ⟨⟨((i 0).val / 512 * 2 + (i 1).val / 2048) * 28 + 27, by rw [hN]; omega⟩, rfl⟩
  obtain ⟨-, -, -, -, -, -, e0, e1⟩ := downBlockIndex t
  refine ⟨t, (flush1_3 t).mpr (by omega), ?_⟩
  rw [down_mem_blk]
  intro a
  match a with
  | ⟨0, _⟩ =>
    show win1_3.index t (0 : Fin 2) * 512 ≤ (i 0).val ∧ (i 0).val < win1_3.index t (0 : Fin 2) * 512 + 512
    rw [e0]; omega
  | ⟨1, _⟩ =>
    show win1_3.index t (1 : Fin 2) * 2048 ≤ (i 1).val ∧ (i 1).val < win1_3.index t (1 : Fin 2) * 2048 + 2048
    rw [e1]; omega

/-! ## The output array after the region -/

/-- After all 448 points the output array holds, at token `n` and output feature `j`, the inner product of the
    activation's row `n` with the down weights' row `j` over all inner features, times the token's routing weight. -/
theorem down_array (c : Dev nD) :
    (dat1 (F := Ideal) V c).arrAt 3 cfg1.N
      = Cert.SwiGLU.downArr (V c main_v6) (V c main_v4) (fun y => V c main_v5 (ix2 (y 0 : Fin 4096) (0 : Fin 1))) :=
  (dat1 V c).arrAt_eq_of_cover 3 (downTarget V c) (fun t hf => down_flushed_eq V c t hf) down_cover

end Cert.KernelIdeal.DownValue

end
-- ==== Proof.HostValue.lean ====
/-
  What the host operations of the kernel program leave in the five buffers its two kernel regions read, at the ideal
  instance. The row selection is twenty-three operations of two arguments, the table `x` and the token indices `ix`:
  an index below zero is moved up by the table's height, the result is checked to lie in `[0, 16383]`, the rows are
  gathered, and a row whose index failed the check is filled with the quiet NaN word. The four conversions to the
  narrower float format are the identity on extended reals, and the reshape of the routing weights from `[4096]` to
  `[4096, 1]` keeps each entry at the same row-major position.
-/
import proofs.«127610_j17051020165440_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.ValueIdx Idealize.SL.Sem

section Take

variable {F : FTy → Type} [FloatOps F]

/-- The row selection as one term of the table `x` and the token indices `ix`. -/
def takeRows (x : (⟨S16384x4096, .f32⟩ : BufTy).Contents (Elt F)) (ix : (⟨S4096, .i32⟩ : BufTy).Contents (Elt F)) :
    (⟨S4096x4096, .f32⟩ : BufTy).Contents (Elt F) :=
  -- an index below zero is moved up by the table's height
  let zero : (⟨S_, .i32⟩ : BufTy).Contents (Elt F) := constantI S_ 32 0#32
  let zeros : (⟨S4096, .i32⟩ : BufTy).Contents (Elt F) := broadcastInDim S4096 ![] bcast_S_S4096 zero
  let neg : (⟨S4096, .i1⟩ : BufTy).Contents (Elt F) := cmpi .slt ix zeros
  let height : (⟨S_, .i32⟩ : BufTy).Contents (Elt F) := constantI S_ 32 16384#32
  let heights : (⟨S4096, .i32⟩ : BufTy).Contents (Elt F) := broadcastInDim S4096 ![] bcast_S_S4096 height
  let moved : (⟨S4096, .i32⟩ : BufTy).Contents (Elt F) := addi ix heights
  let idx : (⟨S4096, .i32⟩ : BufTy).Contents (Elt F) := select neg moved ix
  let idxCol : (⟨S4096x1, .i32⟩ : BufTy).Contents (Elt F) := broadcastInDim S4096x1 ![0] bcast_S4096_S4096x1_0 idx
  -- the moved index is checked to lie in [0, 16383]
  let last : (⟨S1, .i32⟩ : BufTy).Contents (Elt F) := constantI S1 32 16383#32
  let zero' : (⟨S_, .i32⟩ : BufTy).Contents (Elt F) := constantI S_ 32 0#32
  let lo : (⟨S4096x1, .i32⟩ : BufTy).Contents (Elt F) := broadcastInDim S4096x1 ![] bcast_S_S4096x1 zero'
  let geLo : (⟨S4096x1, .i1⟩ : BufTy).Contents (Elt F) := cmpi .sge idxCol lo
  let last' : (⟨S1x1, .i32⟩ : BufTy).Contents (Elt F) := broadcastInDim S1x1 ![1] bcast_S1_S1x1_1 last
  let hi : (⟨S4096x1, .i32⟩ : BufTy).Contents (Elt F) := broadcastInDim S4096x1 ![0, 1] bcast_S1x1_S4096x1_0_1 last'
  let leHi : (⟨S4096x1, .i1⟩ : BufTy).Contents (Elt F) := cmpi .sle idxCol hi
  let inCol : (⟨S4096x1, .i1⟩ : BufTy).Contents (Elt F) := andi geLo leHi
  let tt : (⟨S_, .i1⟩ : BufTy).Contents (Elt F) := constantI S_ 1 1#1
  let inRange : (⟨S4096, .i1⟩ : BufTy).Contents (Elt F) := Host.reduce IntOp.andi inCol tt reducesTo_S4096x1_S4096_d1 h_S_
  -- the rows are gathered, and a row whose index failed the check is filled with the quiet NaN word
  let rows : (⟨S4096x4096, .f32⟩ : BufTy).Contents (Elt F) :=
    Host.gather gather_S16384x4096_S4096x1_S4096x4096_1_0_n_n_0_1_14096 x idxCol
  let keep : (⟨S4096x4096, .i1⟩ : BufTy).Contents (Elt F) := broadcastInDim S4096x4096 ![0] bcast_S4096_S4096x4096_0 inRange
  let nan : (⟨S_, .f32⟩ : BufTy).Contents (Elt F) := constant S_ .f32 0x7FC00000#32
  let fill : (⟨S4096x4096, .f32⟩ : BufTy).Contents (Elt F) := broadcastInDim S4096x4096 ![] bcast_S_S4096x4096 nan
  select keep rows fill

end Take

variable (m : (ℓ : Loc nD τ sig) → Buf (Elt Ideal) ℓ) (c : Dev nD)

open Idealize.ShloMosaic.StableHlo

/-- The first region's token operand is the row selection of the launch's table and indices: the conversion to the
    narrower format is the identity on extended reals. -/
theorem V2_tokens :
    (Gen.V2 (F := Ideal) m c (Proc.devRef .tc main_v1) : S4096x4096.Idx → EReal)
      = takeRows (F := Ideal) (m ((c.tc : Thread nD τ).loc main_arg0)) (m ((c.tc : Thread nD τ).loc main_arg4)) := by
  show StableHlo.after hostOps0_1 (StableHlo.after hostOps0 (fun b => m (c, b))) (Proc.devRef .tc main_v1) = _
  simp only [Gen.hostOps0, Gen.hostOps0_1]
  after_results_simp
  rfl

/-- The gate weights reach the first region as launched. -/
theorem V2_gate :
    (Gen.V2 (F := Ideal) m c (Proc.devRef .tc main_v2) : S14336x4096.Idx → EReal)
      = m ((c.tc : Thread nD τ).loc main_arg1) := by
  show StableHlo.after hostOps0_1 (StableHlo.after hostOps0 (fun b => m (c, b))) (Proc.devRef .tc main_v2) = _
  simp only [Gen.hostOps0, Gen.hostOps0_1]
  after_results_simp
  rfl

/-- The up weights reach the first region as launched. -/
theorem V2_up :
    (Gen.V2 (F := Ideal) m c (Proc.devRef .tc main_v3) : S14336x4096.Idx → EReal)
      = m ((c.tc : Thread nD τ).loc main_arg2) := by
  show StableHlo.after hostOps0_1 (StableHlo.after hostOps0 (fun b => m (c, b))) (Proc.devRef .tc main_v3) = _
  simp only [Gen.hostOps0, Gen.hostOps0_1]
  after_results_simp
  rfl

/-- The down weights reach the second region as launched. -/
theorem V2_down :
    (Gen.V2 (F := Ideal) m c (Proc.devRef .tc main_v4) : S4096x14336.Idx → EReal)
      = m ((c.tc : Thread nD τ).loc main_arg3) := by
  show StableHlo.after hostOps0_1 (StableHlo.after hostOps0 (fun b => m (c, b))) (Proc.devRef .tc main_v4) = _
  simp only [Gen.hostOps0, Gen.hostOps0_1]
  after_results_simp
  rfl

/-- An `[a]` array cast to `[a, 1]` reads, at `(i, 0)`, the operand at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Token `n`'s routing weight sits at `(n, 0)` of the reshaped column. -/
theorem V2_route (n : Fin 4096) :
    (Gen.V2 (F := Ideal) m c (Proc.devRef .tc main_v5) : S4096x1.Idx → EReal) (ix2 n (0 : Fin 1))
      = (m ((c.tc : Thread nD τ).loc main_arg5) : S4096.Idx → EReal) (ix1 n) := by
  show StableHlo.after hostOps0_1 (StableHlo.after hostOps0 (fun b => m (c, b))) (Proc.devRef .tc main_v5) _ = _
  simp only [Gen.hostOps0, Gen.hostOps0_1]
  after_results_simp
  exact shapeCast_a_a1_apply _ _ n 0

end Cert.KernelIdeal.HostValue

end
-- ==== Proof.RefTerm.lean ====
/-
  The reference after its row selection, as one term of the selected rows and the four other arguments: the two
  projections `xs · Wgᵀ` and `xs · Wuᵀ`, the activation `g · (1 / (1 + exp (−g)))` times `u`, the down projection against
  `Wd`, and the product with each token's routing weight broadcast along the row.
-/
import proofs.«127610_j17051020165440_1_alg».proof.ReferenceIdeal

noncomputable section

namespace Cert.ReferenceIdeal.Hand

open Idealize.ShloMosaic Cert.ReferenceIdeal

variable {F : FTy → Type} [FloatOps F] [Facts]
open Facts₀ Facts

/-- The constant one, at every token and inner feature. -/
def ones : (⟨S4096x14336, .f32⟩ : BufTy).Contents (Elt F) :=
  broadcastInDim S4096x14336 ![] bcast_S_S4096x14336 (constant S_ .f32 0x3F800000#32)

/-- `g · (1 / (1 + exp (−g)))`, entry by entry. -/
def siluOf (g : (⟨S4096x14336, .f32⟩ : BufTy).Contents (Elt F)) : (⟨S4096x14336, .f32⟩ : BufTy).Contents (Elt F) :=
  mulf g (Host.divf ones (addf ones (Host.exp (Host.negf g))))

/-- What the reference computes from the selected rows `xs`. -/
def refBody (xs : (⟨S4096x4096, .f32⟩ : BufTy).Contents (Elt F)) (wg wu : (⟨S14336x4096, .f32⟩ : BufTy).Contents (Elt F))
    (wd : (⟨S4096x14336, .f32⟩ : BufTy).Contents (Elt F)) (w : (⟨S4096, .f32⟩ : BufTy).Contents (Elt F)) :
    (⟨S4096x4096, .f32⟩ : BufTy).Contents (Elt F) :=
  mulf
    (Host.dotGeneral dot_S4096x14336_S4096x14336_S4096x4096_1_1_0_0_n_n none
      (mulf (siluOf (Host.dotGeneral dot_S4096x4096_S14336x4096_S4096x14336_1_1_0_0_n_n none xs wg))
        (Host.dotGeneral dot_S4096x4096_S14336x4096_S4096x14336_1_1_0_0_n_n none xs wu))
      wd)
    (broadcastInDim S4096x4096 ![0, 1] bcast_S4096x1_S4096x4096_0_1 (broadcastInDim S4096x1 ![0] bcast_S4096_S4096x1_0 w))

end Cert.ReferenceIdeal.Hand

end
-- ==== Proof.RefRun.lean ====
/-
  The run of the reference program, read back as one term of its six arguments.

  @main is a straight line of thirty-nine operations once its three calls are opened: the row selection's twenty-three
  (the index vector wrapped where negative — add the row count, keep the sum where the index was below zero —, the
  wrapped index made a column, the test that it lies between zero and the last row, that test folded along the unit axis
  and broadcast along the row, the gather of the selected rows, and the select between the gathered rows and the fill
  constant), then the two projections, the activation's nine, the product, the down projection, the routing weight's two
  broadcasts and the last product. Each operation writes a buffer of its own and reads buffers written before it, so the
  contents of the result buffer after the line is the composition of the operations' functions over the arguments'
  launch contents: the row selection's composition is named `takeRows`, and what follows it is `refBody`. No operation
  writes an argument's buffer, so the arguments end as they began.
-/
import proofs.«127610_j17051020165440_1_alg».proof.Proof.Gen.ReferenceIdeal
import proofs.«127610_j17051020165440_1_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The selected rows: row `t` of the result is row `j t` of `x`, where `j t` is `ix t` wrapped (`ix t + 16384` where
    `ix t < 0`, else `ix t`), wherever `0 ≤ j t ≤ 16383`; elsewhere the row is the fill constant. -/
def takeRows (x : (⟨S16384x4096, .f32⟩ : BufTy).Contents (Elt F)) (ix : (⟨S4096, .i32⟩ : BufTy).Contents (Elt F)) :
    (⟨S4096x4096, .f32⟩ : BufTy).Contents (Elt F) :=
  select
    (broadcastInDim S4096x4096 ![0] bcast_S4096_S4096x4096_0
      (Host.reduce IntOp.andi
        (andi
          (cmpi .sge
            (broadcastInDim S4096x1 ![0] bcast_S4096_S4096x1_0
              (select (cmpi .slt ix (broadcastInDim S4096 ![] bcast_S_S4096 (constantI S_ 32 0#32)))
                (addi ix (broadcastInDim S4096 ![] bcast_S_S4096 (constantI S_ 32 16384#32))) ix))
            (broadcastInDim S4096x1 ![] bcast_S_S4096x1 (constantI S_ 32 0#32)))
          (cmpi .sle
            (broadcastInDim S4096x1 ![0] bcast_S4096_S4096x1_0
              (select (cmpi .slt ix (broadcastInDim S4096 ![] bcast_S_S4096 (constantI S_ 32 0#32)))
                (addi ix (broadcastInDim S4096 ![] bcast_S_S4096 (constantI S_ 32 16384#32))) ix))
            (broadcastInDim S4096x1 ![0, 1] bcast_S1x1_S4096x1_0_1
              (broadcastInDim S1x1 ![1] bcast_S1_S1x1_1 (constantI S1 32 16383#32)))))
        (constantI S_ 1 1#1) reducesTo_S4096x1_S4096_d1 h_S_))
    (Host.gather gather_S16384x4096_S4096x1_S4096x4096_1_0_n_n_0_1_14096 x
      (broadcastInDim S4096x1 ![0] bcast_S4096_S4096x1_0
        (select (cmpi .slt ix (broadcastInDim S4096 ![] bcast_S_S4096 (constantI S_ 32 0#32)))
          (addi ix (broadcastInDim S4096 ![] bcast_S_S4096 (constantI S_ 32 16384#32))) ix)))
    (broadcastInDim S4096x4096 ![] bcast_S_S4096x4096 (constant S_ .f32 0x7FC00000#32))

/-- @main's thirty-nine operations in order, each call opened into the callee's operations over that call's buffers:
    the row selection's twenty-three (its inner call's select seventh among them), the two projections, the activation's
    nine, and the six that follow. -/
abbrev ops : List (HloOp τ sig (Elt F)) :=
  [ TRef.nullary main_call0.c (constantI S_ 32 0#32),
    TRef.unary main_call0.c main_call0.v0 (broadcastInDim S4096 ![] bcast_S_S4096),
    TRef.binary (.of main_arg4) main_call0.v0 main_call0.v1 (cmpi .slt),
    TRef.nullary main_call0.c_0 (constantI S_ 32 16384#32),
    TRef.unary main_call0.c_0 main_call0.v2 (broadcastInDim S4096 ![] bcast_S_S4096),
    TRef.binary (.of main_arg4) main_call0.v2 main_call0.v3 addi,
    TRef.ternary main_call0.v1 main_call0.v3 (.of main_arg4) main_call0.call0.v0 select,
    TRef.unary main_call0.call0.v0 main_call0.v5 (broadcastInDim S4096x1 ![0] bcast_S4096_S4096x1_0),
    TRef.nullary main_call0.c_1 (constantI S1 32 16383#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S16384x4096_S4096x1_S4096x4096_1_0_n_n_0_1_14096 x i),
    TRef.unary main_call0.v12 main_call0.v14 (broadcastInDim S4096x4096 ![0] bcast_S4096_S4096x4096_0),
    TRef.nullary main_call0.cst (constant S_ .f32 0x7FC00000#32),
    TRef.unary main_call0.cst main_call0.v15 (broadcastInDim S4096x4096 ![] bcast_S_S4096x4096),
    TRef.ternary main_call0.v14 main_call0.v13 main_call0.v15 main_call0.v16 select,
    binary main_v0 main_arg1 main_v1 ((fun l r => Host.dotGeneral dot_S4096x4096_S14336x4096_S4096x14336_1_1_0_0_n_n none l r) : (⟨S4096x4096, .f32⟩ : BufTy).Contents (Elt F) → (⟨S14336x4096, .f32⟩ : BufTy).Contents (Elt F) → (⟨S4096x14336, .f32⟩ : BufTy).Contents (Elt F)),
    binary main_v0 main_arg2 main_v2 ((fun l r => Host.dotGeneral dot_S4096x4096_S14336x4096_S4096x14336_1_1_0_0_n_n none l r) : (⟨S4096x4096, .f32⟩ : BufTy).Contents (Elt F) → (⟨S14336x4096, .f32⟩ : BufTy).Contents (Elt F) → (⟨S4096x14336, .f32⟩ : BufTy).Contents (Elt F)),
    TRef.unary (.of main_v1) main_call1.v0 Host.negf,
    TRef.unary main_call1.v0 main_call1.v1 Host.exp,
    TRef.nullary main_call1.cst (constant S_ .f32 0x3F800000#32),
    TRef.unary main_call1.cst main_call1.v2 (broadcastInDim S4096x14336 ![] bcast_S_S4096x14336),
    TRef.binary main_call1.v2 main_call1.v1 main_call1.v3 addf,
    TRef.nullary main_call1.cst_0 (constant S_ .f32 0x3F800000#32),
    TRef.unary main_call1.cst_0 main_call1.v4 (broadcastInDim S4096x14336 ![] bcast_S_S4096x14336),
    TRef.binary main_call1.v4 main_call1.v3 main_call1.v5 Host.divf,
    TRef.binary (.of main_v1) main_call1.v5 main_call1.v6 mulf,
    binary main_v3 main_v2 main_v4 (mulf : (⟨S4096x14336, .f32⟩ : BufTy).Contents (Elt F) → (⟨S4096x14336, .f32⟩ : BufTy).Contents (Elt F) → (⟨S4096x14336, .f32⟩ : BufTy).Contents (Elt F)),
    binary main_v4 main_arg3 main_v5 ((fun l r => Host.dotGeneral dot_S4096x14336_S4096x14336_S4096x4096_1_1_0_0_n_n none l r) : (⟨S4096x14336, .f32⟩ : BufTy).Contents (Elt F) → (⟨S4096x14336, .f32⟩ : BufTy).Contents (Elt F) → (⟨S4096x4096, .f32⟩ : BufTy).Contents (Elt F)),
    unary main_arg5 main_v6 (broadcastInDim S4096x1 ![0] bcast_S4096_S4096x1_0 : (⟨S4096, .f32⟩ : BufTy).Contents (Elt F) → (⟨S4096x1, .f32⟩ : BufTy).Contents (Elt F)),
    unary main_v6 main_v7 (broadcastInDim S4096x4096 ![0, 1] bcast_S4096x1_S4096x4096_0_1 : (⟨S4096x1, .f32⟩ : BufTy).Contents (Elt F) → (⟨S4096x4096, .f32⟩ : BufTy).Contents (Elt F)),
    binary main_v5 main_v7 main_v8 (mulf : (⟨S4096x4096, .f32⟩ : BufTy).Contents (Elt F) → (⟨S4096x4096, .f32⟩ : BufTy).Contents (Elt F) → (⟨S4096x4096, .f32⟩ : BufTy).Contents (Elt F)) ]

-- thirty-nine binds re-associated: the rewrite under the chain recurses once per statement
set_option maxRecDepth 2048 in
/-- @main is that straight line: the three functions' bodies opened at their calls, sequencing re-associated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub ..,
    binary_bufs_sub .., binary_bufs_sub .., unary_bufs_sub .., unary_bufs_sub .., binary_bufs_sub ..⟩

/-- The result buffer after the line: the operations composed, which is `refBody` over the selected rows. -/
theorem after_v8 (V : Valuation τ sig (Elt F)) :
    after ops V (main_v8 : DevRef τ sig)
      = refBody (takeRows (V (main_arg0 : DevRef τ sig)) (V (main_arg4 : DevRef τ sig))) (V (main_arg1 : DevRef τ sig))
          (V (main_arg2 : DevRef τ sig)) (V (main_arg3 : DevRef τ sig)) (V (main_arg5 : DevRef τ sig)) := by
  after_results_simp
  rfl

/-- No operation of the line writes an argument's buffer. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp
theorem after_arg4 (V : Valuation τ sig (Elt F)) : after ops V (main_arg4 : DevRef τ sig) = V (main_arg4 : DevRef τ sig) := by
  after_results_simp
theorem after_arg5 (V : Valuation τ sig (Elt F)) : after ops V (main_arg5 : DevRef τ sig) = V (main_arg5 : DevRef τ sig) := by
  after_results_simp

/-- On every device, for any float values, from any memory with zero counters: every weakly fair execution of @main
    terminates with the result buffer at `refBody` of the selected rows and the other arguments' launch contents, and
    the six arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v8) = refBody (takeRows (m ((c.tc : Thread nD τ).loc main_arg0)) (m ((c.tc : Thread nD τ).loc main_arg4))) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v8).trans (after_v8 _), (h c main_arg0).trans (after_arg0 _),
      (h c main_arg1).trans (after_arg1 _), (h c main_arg2).trans (after_arg2 _), (h c main_arg3).trans (after_arg3 _),
      (h c main_arg4).trans (after_arg4 _), (h c main_arg5).trans (after_arg5 _)⟩)
    (run_seq scopedRefs_eq scopedSems_eq defs main (fun _ => ops) main_eq (fun _ => ops_sub) m ρ)

end Cert.ReferenceIdeal.Hand

end
-- ==== Proof.RefValue.lean ====
/-
  The reference's term read at an index, over the extended reals.

  At token `n` and output feature `j` the term is the product of two factors. The first is the down contraction
  `∑ i, h[n,i] · Wd[j,i]` over the 14336 inner features, where `h[n,i] = (g · (1 / (1 + e^(−g)))) · u` and `g`, `u` are
  the gate and up contractions `∑ k, xs[n,k] · W[i,k]` over the 4096 input features. The second is the routing weight of
  token `n`, which the two broadcasts copy along the row. Each contraction's sum runs over a one-axis index set, which is
  re-indexed by its single coordinate; the spelled-out quotient is the logistic function by its definition; the constant
  word of the activation is the real one.
-/
import proofs.«127610_j17051020165440_1_alg».proof.Proof.RefTerm
import proofs.«127610_j17051020165440_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefValue

variable [Cert.ReferenceIdeal.Facts]
open Cert.ReferenceIdeal Cert.ReferenceIdeal.Hand Idealize.ShloMosaic Idealize.ShloMosaic.ValueIdx
open Facts₀ Facts

/-! ### The projections' contraction: operand indices, coordinate by coordinate -/

theorem lhs_proj_0 (j : S4096x14336.Idx) (k : dot_S4096x4096_S14336x4096_S4096x14336_1_1_0_0_n_n.contr.Idx) :
    (dot_S4096x4096_S14336x4096_S4096x14336_1_1_0_0_n_n.lhsIdx j k 0 : ℕ) = j 0 := by
  simp [DotDims.lhsIdx, dot_S4096x4096_S14336x4096_S4096x14336_1_1_0_0_n_n]; rfl
theorem rhs_proj_0 (j : S4096x14336.Idx) (k : dot_S4096x4096_S14336x4096_S4096x14336_1_1_0_0_n_n.contr.Idx) :
    (dot_S4096x4096_S14336x4096_S4096x14336_1_1_0_0_n_n.rhsIdx j k 0 : ℕ) = j 1 := by
  simp [DotDims.rhsIdx, dot_S4096x4096_S14336x4096_S4096x14336_1_1_0_0_n_n]; rfl

/-- The projections contract one axis, of extent 4096: the contraction's index is its one coordinate. -/
def contrProj : dot_S4096x4096_S14336x4096_S4096x14336_1_1_0_0_n_n.contr.Idx ≃ Fin 4096 :=
  contrEquiv1 dot_S4096x4096_S14336x4096_S4096x14336_1_1_0_0_n_n 4096 rfl rfl

/-- At token `n`, inner feature `i` and contraction position `k` the left operand is read at `(n, k)` … -/
theorem lhs_proj (n : Fin 4096) (i : Fin 14336) (k : Fin 4096) :
    dot_S4096x4096_S14336x4096_S4096x14336_1_1_0_0_n_n.lhsIdx (ix2 n i) (contrProj.symm k) = ix2 n k := by
  funext a
  refine Fin.ext ?_
  match a with
  | ⟨0, _⟩ => exact lhs_proj_0 _ _
  | ⟨1, _⟩ =>
    exact (DotDims.lhsIdx_val_of_single dot_S4096x4096_S14336x4096_S4096x14336_1_1_0_0_n_n (cl := 1) rfl _ _).trans
      (contrEquiv1_symm_val dot_S4096x4096_S14336x4096_S4096x14336_1_1_0_0_n_n 4096 rfl rfl k)
/-- … and the right operand at `(i, k)`. -/
theorem rhs_proj (n : Fin 4096) (i : Fin 14336) (k : Fin 4096) :
    dot_S4096x4096_S14336x4096_S4096x14336_1_1_0_0_n_n.rhsIdx (ix2 n i) (contrProj.symm k) = ix2 i k := by
  funext a
  refine Fin.ext ?_
  match a with
  | ⟨0, _⟩ => exact rhs_proj_0 _ _
  | ⟨1, _⟩ =>
    exact (DotDims.rhsIdx_val_of_single dot_S4096x4096_S14336x4096_S4096x14336_1_1_0_0_n_n (cr := 1) rfl _ _).trans
      (contrEquiv1_symm_val dot_S4096x4096_S14336x4096_S4096x14336_1_1_0_0_n_n 4096 rfl rfl k)

/-- A projection read at token `n` and inner feature `i`: the inner product of row `n` of `xs` with row `i` of the weights,
    the contraction's sum re-indexed by its one coordinate. -/
theorem proj_apply (xs : S4096x4096.Idx → EReal) (w : S14336x4096.Idx → EReal) (n : Fin 4096) (i : Fin 14336) :
    Host.dotGeneral (F := Ideal) (φ₁ := .f32) (φ₂ := .f32) dot_S4096x4096_S14336x4096_S4096x14336_1_1_0_0_n_n none xs w (ix2 n i)
      = Cert.SwiGLU.proj xs w n i := by
  simp only [Host.dotGeneral]
  rw [Ideal.dotGeneral_apply, ← Equiv.sum_comp contrProj.symm]
  unfold Cert.SwiGLU.proj
  refine Finset.sum_congr rfl fun k _ => ?_
  rw [lhs_proj, rhs_proj]

/-! ### The down contraction: operand indices, coordinate by coordinate -/

theorem lhs_down_0 (j : S4096x4096.Idx) (k : dot_S4096x14336_S4096x14336_S4096x4096_1_1_0_0_n_n.contr.Idx) :
    (dot_S4096x14336_S4096x14336_S4096x4096_1_1_0_0_n_n.lhsIdx j k 0 : ℕ) = j 0 := by
  simp [DotDims.lhsIdx, dot_S4096x14336_S4096x14336_S4096x4096_1_1_0_0_n_n]; rfl
theorem rhs_down_0 (j : S4096x4096.Idx) (k : dot_S4096x14336_S4096x14336_S4096x4096_1_1_0_0_n_n.contr.Idx) :
    (dot_S4096x14336_S4096x14336_S4096x4096_1_1_0_0_n_n.rhsIdx j k 0 : ℕ) = j 1 := by
  simp [DotDims.rhsIdx, dot_S4096x14336_S4096x14336_S4096x4096_1_1_0_0_n_n]; rfl

/-- The down projection contracts one axis, of extent 14336. -/
def contrDown : dot_S4096x14336_S4096x14336_S4096x4096_1_1_0_0_n_n.contr.Idx ≃ Fin 14336 :=
  contrEquiv1 dot_S4096x14336_S4096x14336_S4096x4096_1_1_0_0_n_n 14336 rfl rfl

/-- At token `n`, output feature `j` and contraction position `i` the left operand is read at `(n, i)` … -/
theorem lhs_down (n j : Fin 4096) (i : Fin 14336) :
    dot_S4096x14336_S4096x14336_S4096x4096_1_1_0_0_n_n.lhsIdx (ix2 n j) (contrDown.symm i) = ix2 n i := by
  funext a
  refine Fin.ext ?_
  match a with
  | ⟨0, _⟩ => exact lhs_down_0 _ _
  | ⟨1, _⟩ =>
    exact (DotDims.lhsIdx_val_of_single dot_S4096x14336_S4096x14336_S4096x4096_1_1_0_0_n_n (cl := 1) rfl _ _).trans
      (contrEquiv1_symm_val dot_S4096x14336_S4096x14336_S4096x4096_1_1_0_0_n_n 14336 rfl rfl i)
/-- … and the right operand at `(j, i)`. -/
theorem rhs_down (n j : Fin 4096) (i : Fin 14336) :
    dot_S4096x14336_S4096x14336_S4096x4096_1_1_0_0_n_n.rhsIdx (ix2 n j) (contrDown.symm i) = ix2 j i := by
  funext a
  refine Fin.ext ?_
  match a with
  | ⟨0, _⟩ => exact rhs_down_0 _ _
  | ⟨1, _⟩ =>
    exact (DotDims.rhsIdx_val_of_single dot_S4096x14336_S4096x14336_S4096x4096_1_1_0_0_n_n (cr := 1) rfl _ _).trans
      (contrEquiv1_symm_val dot_S4096x14336_S4096x14336_S4096x4096_1_1_0_0_n_n 14336 rfl rfl i)

/-- The down contraction read at token `n` and output feature `j`: `∑ i, h[n,i] · wd[j,i]`. -/
theorem down_apply (h wd : S4096x14336.Idx → EReal) (n j : Fin 4096) :
    Host.dotGeneral (F := Ideal) (φ₁ := .f32) (φ₂ := .f32) dot_S4096x14336_S4096x14336_S4096x4096_1_1_0_0_n_n none h wd (ix2 n j)
      = ∑ i : Fin 14336, h (ix2 n i) * wd (ix2 j i) := by
  simp only [Host.dotGeneral]
  rw [Ideal.dotGeneral_apply, ← Equiv.sum_comp contrDown.symm]
  refine Finset.sum_congr rfl fun i _ => ?_
  rw [lhs_down, rhs_down]

/-! ### The activation, entry by entry -/

/-- The constant array reads the real one everywhere: a scalar broadcast reads the scalar, whose word encodes `1`. -/
theorem ones_apply (y : S4096x14336.Idx) : ones (F := Ideal) y = 1 := by
  unfold ones
  rw [broadcastInDim_scalar_apply, constant_apply, Ideal.ofBits_one_f32]

/-- `g · (1 / (1 + e^(−g)))` at an entry is `g · σ(g)`: the quotient is the logistic function by its definition. -/
theorem siluOf_apply (g : S4096x14336.Idx → EReal) (y : S4096x14336.Idx) :
    siluOf (F := Ideal) g y = g y * Ideal.logistic (g y) := by
  show g y * Ideal.div (ones (F := Ideal) y) (ones (F := Ideal) y + Ideal.exp (-(g y))) = _
  rw [ones_apply]
  rfl

/-! ### The routing weight, broadcast along the row -/

/-- The two broadcasts `[4096] → [4096, 1] → [4096, 4096]` read at `(n, j)` give token `n`'s weight. -/
theorem route_apply (w : S4096.Idx → EReal) (n j : Fin 4096) :
    broadcastInDim S4096x4096 ![0, 1] bcast_S4096x1_S4096x4096_0_1
      (broadcastInDim S4096x1 ![0] bcast_S4096_S4096x1_0 w) (ix2 n j) = w (ix1 n) := by
  rw [broadcastInDim_apply ![0, 1] bcast_S4096x1_S4096x4096_0_1 _ (ix2 n j) (ix2 n (0 : Fin 1))
    (fun a => by match a with | ⟨0, _⟩ => rfl | ⟨1, _⟩ => rfl)]
  rw [broadcastInDim_apply ![0] bcast_S4096_S4096x1_0 w (ix2 n (0 : Fin 1)) (ix1 n)
    (fun a => by match a with | ⟨0, _⟩ => rfl)]

/-! ### The whole term -/

/-- The activation array at token `n` and inner feature `i`: `(g · σ(g)) · u` of the two projections there. -/
theorem act_apply (xs : S4096x4096.Idx → EReal) (wg wu : S14336x4096.Idx → EReal) (n : Fin 4096) (i : Fin 14336) :
    mulf (F := Ideal) (φ := .f32)
        (siluOf (F := Ideal) (Host.dotGeneral (F := Ideal) (φ₁ := .f32) (φ₂ := .f32) dot_S4096x4096_S14336x4096_S4096x14336_1_1_0_0_n_n none xs wg))
        (Host.dotGeneral (F := Ideal) (φ₁ := .f32) (φ₂ := .f32) dot_S4096x4096_S14336x4096_S4096x14336_1_1_0_0_n_n none xs wu) (ix2 n i)
      = Cert.SwiGLU.actArr xs wg wu (ix2 n i) := by
  rw [mulf_apply, siluOf_apply, proj_apply, proj_apply, Cert.SwiGLU.actArr_apply]
  unfold Cert.SwiGLU.act
  exact Eq.refl _

/-- The reference's term is the specified function: index by index, the outer product's first factor is the down
    contraction of the activation and its second the token's routing weight. -/
theorem refBody_eq (xs : (⟨S4096x4096, .f32⟩ : BufTy).Contents (Elt Ideal))
    (wg wu : (⟨S14336x4096, .f32⟩ : BufTy).Contents (Elt Ideal))
    (wd : (⟨S4096x14336, .f32⟩ : BufTy).Contents (Elt Ideal)) (w : (⟨S4096, .f32⟩ : BufTy).Contents (Elt Ideal)) :
    refBody (F := Ideal) xs wg wu wd w = Cert.SwiGLU.result xs wg wu wd w := by
  funext y
  obtain ⟨n, j, rfl⟩ : ∃ (n j : Fin 4096), y = ix2 n j := ⟨y 0, y 1, eq_ix2 y⟩
  rw [Cert.SwiGLU.result_apply]
  unfold refBody Cert.SwiGLU.downAt
  rw [mulf_apply, down_apply, route_apply]
  refine congrArg (fun s : EReal => s * w (ix1 n)) (Finset.sum_congr rfl fun i _ => ?_)
  rw [act_apply]

end Cert.ReferenceIdeal.RefValue

end
-- ==== Proof.lean ====
/-
  The certificate: a gated feed-forward block over selected tokens, written as two kernel launches, computes what its plain
  reference computes.

  Both programs select rows of the token pool by the same host operations (an index below zero counts from the end; a row
  out of range is filled with one fixed word) — one function of the pool and the indices, never opened here. From the
  selected rows `xs` both form the gate and up projections `g = xs · Wgᵀ`, `u = xs · Wuᵀ`, the activation
  `(g · σ(g)) · u` with `σ(g) = 1 / (1 + e^(−g))`, its projection against the down weights, and scale each token's row by its
  routing weight. The kernel program does this block by block: the first launch computes the activation for 512 tokens
  against 512 weight rows at a time, each inner product over all 4096 features in one piece; the second accumulates the
  down projection over 28 blocks of 512 inner features in a scratch accumulator that starts at zero, and multiplies by the
  routing weights once the sum is complete. On the extended reals a change of float format is the identity, the kernel's
  one-operation sigmoid IS `1 / (1 + e^(−g))` with the same corner conventions, and a sum taken block by block from zero is
  the whole sum, because addition there is commutative and associative with zero neutral; the products are taken in the same
  order and grouping on both sides, so no law is used that fails at the infinities and the inputs' finiteness is never opened.

  The three frames: each kernel launch is a pipeline whose body obligation is proved once for any float instance (the
  word-level program's and the idealized program's frames are the same text), the launch is the library's theorem for a
  program of several regions over the generated host side, and the reference is a straight line of host operations.
  The idealization rewrote nothing, so there is nothing to preserve.
-/
import proofs.«127610_j17051020165440_1_alg».proof.Defs
import proofs.«127610_j17051020165440_1_alg».proof.Proof.Gen.Kernel
import proofs.«127610_j17051020165440_1_alg».proof.Proof.Gen.KernelIdeal
import proofs.«127610_j17051020165440_1_alg».proof.Proof.Gen.ReferenceIdeal
import proofs.«127610_j17051020165440_1_alg».proof.Proof.Gen.Pre_finite_inputs
import proofs.«127610_j17051020165440_1_alg».proof.Proof.KLaunch
import proofs.«127610_j17051020165440_1_alg».proof.Proof.KILaunch
import proofs.«127610_j17051020165440_1_alg».proof.Proof.GateUpValue
import proofs.«127610_j17051020165440_1_alg».proof.Proof.DownValue
import proofs.«127610_j17051020165440_1_alg».proof.Proof.HostValue
import proofs.«127610_j17051020165440_1_alg».proof.Proof.RefRun
import proofs.«127610_j17051020165440_1_alg».proof.Proof.RefValue

noncomputable section

namespace Cert.Proof

open Idealize.ShloMosaic Idealize.ShloMosaic.TcCoe Idealize.ShloMosaic.ValueIdx Idealize.SL.Sem

/-! ## The kernel program's result is the specification -/

section Value

open Cert.KernelIdeal Cert.KernelIdeal.Gen Cert.KernelIdeal.Launch

variable (m : (ℓ : Loc nD τ sig) → Buf (Elt Ideal) ℓ)

/-- The first launch's output array, as the second launch finds it: the gated activation of the selected rows. -/
theorem entry1_act (c : Dev nD) :
    (entry1 m c main_v6 : S4096x14336.Idx → EReal)
      = Cert.SwiGLU.actArr (Cert.KernelIdeal.HostValue.takeRows (F := Ideal) (m ((c.tc : Thread nD τ).loc main_arg0)) (m ((c.tc : Thread nD τ).loc main_arg4)))
          (m ((c.tc : Thread nD τ).loc main_arg1)) (m ((c.tc : Thread nD τ).loc main_arg2)) := by
  have h6 : entry1 m c main_v6 = left6 m c :=
    Function.update_self (Proc.devRef .tc main_v6 : DevRef τ sig) (left6 m c) (Gen.V2 m c)
  rw [h6]
  unfold left6
  rw [Cert.KernelIdeal.GateUpValue.gateUp_array (entry0 m) c]
  rw [show entry0 m c main_v1 = Gen.V2 m c (Proc.devRef .tc main_v1) from rfl, Cert.KernelIdeal.HostValue.V2_tokens m c,
    show entry0 m c main_v2 = Gen.V2 m c (Proc.devRef .tc main_v2) from rfl, Cert.KernelIdeal.HostValue.V2_gate m c,
    show entry0 m c main_v3 = Gen.V2 m c (Proc.devRef .tc main_v3) from rfl, Cert.KernelIdeal.HostValue.V2_up m c]

/-- The down weights as the second launch finds them: the argument array. -/
theorem entry1_down (c : Dev nD) :
    (entry1 m c main_v4 : S4096x14336.Idx → EReal) = m ((c.tc : Thread nD τ).loc main_arg3) := by
  have h4 : entry1 m c main_v4 = Gen.V2 m c (Proc.devRef .tc main_v4) :=
    Function.update_of_ne (StableHlo.devRef_ne_of_ne (by decide) : (Proc.devRef .tc main_v4 : DevRef τ sig) ≠ Proc.devRef .tc main_v6) _ _
  rw [h4]; exact Cert.KernelIdeal.HostValue.V2_down m c

/-- The routing weights' column as the second launch finds it: the argument array, one weight per row. -/
theorem entry1_route (c : Dev nD) :
    (fun y : Cert.SwiGLU.SRoute.Idx => (entry1 m c main_v5 : S4096x1.Idx → EReal) (ix2 (y 0 : Fin 4096) (0 : Fin 1)))
      = m ((c.tc : Thread nD τ).loc main_arg5) := by
  funext y
  have h5 : entry1 m c main_v5 = Gen.V2 m c (Proc.devRef .tc main_v5) :=
    Function.update_of_ne (StableHlo.devRef_ne_of_ne (by decide) : (Proc.devRef .tc main_v5 : DevRef τ sig) ≠ Proc.devRef .tc main_v6) _ _
  rw [h5]
  refine (Cert.KernelIdeal.HostValue.V2_route m c (y 0)).trans ?_
  exact congrArg _ (eq_ix1 y).symm

/-- What the second launch leaves in the result's buffer is the specification's function of the arguments. -/
theorem result_value (c : Dev nD) :
    (left7 m c : S4096x4096.Idx → EReal)
      = Cert.SwiGLU.result (Cert.KernelIdeal.HostValue.takeRows (F := Ideal) (m ((c.tc : Thread nD τ).loc main_arg0)) (m ((c.tc : Thread nD τ).loc main_arg4)))
          (m ((c.tc : Thread nD τ).loc main_arg1)) (m ((c.tc : Thread nD τ).loc main_arg2)) (m ((c.tc : Thread nD τ).loc main_arg3))
          (m ((c.tc : Thread nD τ).loc main_arg5)) := by
  unfold left7
  rw [Cert.KernelIdeal.DownValue.down_array (entry1 m) c, entry1_act m c, entry1_down m c, entry1_route m c]
  rfl

end Value

/-! ## The two programs select the same rows -/

/-- The row selection is the same composition of the same host operations in both programs. -/
theorem takeRows_eq (x : (⟨Cert.KernelIdeal.S16384x4096, .f32⟩ : BufTy).Contents (Elt Ideal))
    (ix : (⟨Cert.KernelIdeal.S4096, .i32⟩ : BufTy).Contents (Elt Ideal)) :
    Cert.ReferenceIdeal.Hand.takeRows (F := Ideal) x ix = Cert.KernelIdeal.HostValue.takeRows (F := Ideal) x ix := by
  unfold Cert.ReferenceIdeal.Hand.takeRows Cert.KernelIdeal.HostValue.takeRows
  rfl

/-! ## The claims -/

theorem frame_k : Cert.frame_Kernel := fun m ρ _ => Cert.Kernel.Launch.frame (F := Bits) m ρ
theorem frame_ki : Cert.frame_KernelIdeal := fun m ρ _ => Cert.KernelIdeal.Launch.frame (F := Ideal) m ρ
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- From memories agreeing on the arguments both programs end with the result's buffer at the specification's function of
    them: the kernel program by its two launches' values, the reference by reading its term index by index. -/
theorem algebraic : Cert.algebraic_KernelIdeal_ReferenceIdeal := by
  intro m ρ m' ρ' _ hagree
  refine ⟨fun c => Cert.KernelIdeal.Launch.left7 (F := Ideal) m c, Cert.KernelIdeal.Launch.run_named (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  rw [Cert.ReferenceIdeal.RefValue.refBody_eq, takeRows_eq]
  exact (result_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
